-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x512 : Shape := ⟨2, ![8192, 512]⟩
abbrev S512x8192 : Shape := ⟨2, ![512, 8192]⟩
abbrev S512 : Shape := ⟨1, ![512]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x8192 : S_.BroadcastsInDim S512x8192 (![] : Fin 0 → Fin S512x8192.rank)
  reducesTo_S512x8192_S_d0_1 : S512x8192.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x8192 .f32) (main_arg5 : FVec F S512x8192 .f32) (main_arg6 : FVec F S512 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S512x8192 .f32 := Host.absf main_arg4
  let main_cst_6 : FVec F S_ .f32 := constant S_ .f32 0x7F800000#32
  let main_v20 : FVec F S512x8192 .f32 := broadcastInDim S512x8192 ![] bcast_S_S512x8192 main_cst_6
  let main_v21 : IVec S512x8192 1 := cmpf .olt main_v19 main_v20
  let main_c_7 : IVec S_ 1 := constantI S_ 1 1#1
  let main_v22 : IVec S_ 1 := (fun x v => Host.reduce IntOp.andi x v reducesTo_S512x8192_S_d0_1 h_S_) main_v21 main_c_7
  let main_v23 : IVec S_ 1 := andi main_v18 main_v22
  let main_v24 : FVec F S512x8192 .f32 := Host.absf main_arg5
  let main_cst_8 : FVec F S_ .f32 := constant S_ .f32 0x7F800000#32
  let main_v25 : FVec F S512x8192 .f32 := broadcastInDim S512x8192 ![] bcast_S_S512x8192 main_cst_8
  let main_v26 : IVec S512x8192 1 := cmpf .olt main_v24 main_v25
  let main_c_9 : IVec S_ 1 := constantI S_ 1 1#1
  let main_v27 : IVec S_ 1 := (fun x v => Host.reduce IntOp.andi x v reducesTo_S512x8192_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8192x8192 .f32) (main_arg1 : FVec F S8192x8192 .f32) (main_arg2 : FVec F S8192x512 .f32) (main_arg3 : FVec F S8192x512 .f32) (main_arg4 : FVec F S512x8192 .f32) (main_arg5 : FVec F S512x8192 .f32) (main_arg6 : FVec F S512 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_arg6 main_v13 main_v16
-- ==== Kernel.lean ====
abbrev S8192x8192 : Shape := ⟨2, ![8192, 8192]⟩
abbrev S8192x512 : Shape := ⟨2, ![8192, 512]⟩
abbrev S512x8192 : Shape := ⟨2, ![512, 8192]⟩
abbrev S512 : Shape := ⟨1, ![512]⟩
abbrev S1x512 : Shape := ⟨2, ![1, 512]⟩
abbrev S256x8192 : Shape := ⟨2, ![256, 8192]⟩
abbrev S256x512 : Shape := ⟨2, ![256, 512]⟩
abbrev S256 : Shape := ⟨1, ![256]⟩
abbrev S256x1 : Shape := ⟨2, ![256, 1]⟩
abbrev S64x8192 : Shape := ⟨2, ![64, 8192]⟩
abbrev S64x512 : Shape := ⟨2, ![64, 512]⟩
abbrev S64 : Shape := ⟨1, ![64]⟩
abbrev S64x1 : Shape := ⟨2, ![64, 1]⟩
abbrev S128x8192 : Shape := ⟨2, ![128, 8192]⟩
abbrev S128x512 : Shape := ⟨2, ![128, 512]⟩

abbrev nBuf : Space → Nat
  | .hbm => 19
  | .vmem => 23
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x512, .f32⟩
  | .hbm, ⟨3, _⟩ => ⟨S8192x512, .f32⟩
  | .hbm, ⟨4, _⟩ => ⟨S512x8192, .f32⟩
  | .hbm, ⟨5, _⟩ => ⟨S512x8192, .f32⟩
  | .hbm, ⟨6, _⟩ => ⟨S512, .f32⟩
  | .hbm, ⟨7, _⟩ => ⟨S8192x512, .f32⟩
  | .hbm, ⟨8, _⟩ => ⟨S8192x512, .bf16⟩
  | .hbm, ⟨9, _⟩ => ⟨S512x8192, .f32⟩
  | .hbm, ⟨10, _⟩ => ⟨S512x8192, .bf16⟩
  | .hbm, ⟨11, _⟩ => ⟨S8192x512, .bf16⟩
  | .hbm, ⟨12, _⟩ => ⟨S512x8192, .bf16⟩
  | .hbm, ⟨13, _⟩ => ⟨S1x512, .f32⟩
  | .hbm, ⟨14, _⟩ => ⟨S8192x512, .bf16⟩
  | .hbm, ⟨15, _⟩ => ⟨S8192x512, .f32⟩
  | .hbm, ⟨16, _⟩ => ⟨S8192x512, .bf16⟩
  | .hbm, ⟨17, _⟩ => ⟨S8192x8192, .bf16⟩
  | .hbm, ⟨18, _⟩ => ⟨S8192x8192, .f32⟩
  | .local _ .vmem, ⟨0, _⟩ => ⟨S256x8192, .f32⟩
  | .local _ .vmem, ⟨1, _⟩ => ⟨S256x8192, .f32⟩
  | .local _ .vmem, ⟨2, _⟩ => ⟨S8192x512, .bf16⟩
  | .local _ .vmem, ⟨3, _⟩ => ⟨S256x512, .bf16⟩
  | .local _ .vmem, ⟨4, _⟩ => ⟨S256x512, .bf16⟩
  | .local _ .vmem, ⟨5, _⟩ => ⟨S64x8192, .f32⟩
  | .local _ .vmem, ⟨6, _⟩ => ⟨S64x8192, .f32⟩
  | .local _ .vmem, ⟨7, _⟩ => ⟨S8192x512, .bf16⟩
  | .local _ .vmem, ⟨8, _⟩ => ⟨S512x8192, .bf16⟩
  | .local _ .vmem, ⟨9, _⟩ => ⟨S1x512, .f32⟩
  | .local _ .vmem, ⟨10, _⟩ => ⟨S8192x512, .bf16⟩
  | .local _ .vmem, ⟨11, _⟩ => ⟨S64x512, .f32⟩
  | .local _ .vmem, ⟨12, _⟩ => ⟨S64x512, .f32⟩
  | .local _ .vmem, ⟨13, _⟩ => ⟨S64x512, .bf16⟩
  | .local _ .vmem, ⟨14, _⟩ => ⟨S64x512, .bf16⟩
  | .local _ .vmem, ⟨15, _⟩ => ⟨S64x8192, .bf16⟩
  | .local _ .vmem, ⟨16, _⟩ => ⟨S64x8192, .bf16⟩
  | .local _ .vmem, ⟨17, _⟩ => ⟨S128x8192, .bf16⟩
  | .local _ .vmem, ⟨18, _⟩ => ⟨S128x8192, .bf16⟩
  | .local _ .vmem, ⟨19, _⟩ => ⟨S8192x512, .bf16⟩
  | .local _ .vmem, ⟨20, _⟩ => ⟨S512x8192, .bf16⟩
  | .local _ .vmem, ⟨21, _⟩ => ⟨S128x8192, .f32⟩
  | .local _ .vmem, ⟨22, _⟩ => ⟨S128x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x8192 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8192x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S64x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S64x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S64x8192 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x8192 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S128x8192 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  transposes_S512x8192_S8192x512_1_0 : S512x8192.Transposes [1, 0] S8192x512
  bitsLt_bf16_f32 : FTy.bits .bf16 < FTy.bits .f32
  transposes_S8192x512_S512x8192_1_0 : S8192x512.Transposes [1, 0] S512x8192
  shapeCasts_S512_S1x512 : S512.ShapeCasts S1x512
  inb_S256x8192_S256x8192_0_0 : ∀ a, (![0, 0] : Fin 2 → Nat) a + S256x8192.size a ≤ S256x8192.size a
  h_S256x8192 : 0 < S256x8192.numel
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  reduces_S256x512_S256 : S256x512.Reduces [1] S256
  shapeCasts_S256_S256x1 : S256.ShapeCasts S256x1
  broadcasts_S256x1_S256x512 : S256x1.Broadcasts S256x512
  inb_S256x512_S256x512_0_0 : ∀ a, (![0, 0] : Fin 2 → Nat) a + S256x512.size a ≤ S256x512.size a
  h_S256x512 : 0 < S256x512.numel
  packedbf16_S256x512_S256x512_0_0 : (Rect.unit (s := S256x512) ![0, 0] S256x512.size inb_S256x512_S256x512_0_0).PackedRows (EltTy.packing .bf16)
  inb_S64x8192_S64x8192_0_0 : ∀ a, (![0, 0] : Fin 2 → Nat) a + S64x8192.size a ≤ S64x8192.size a
  h_S64x8192 : 0 < S64x8192.numel
  packedbf16_S64x8192_S64x8192_0_0 : (Rect.unit (s := S64x8192) ![0, 0] S64x8192.size inb_S64x8192_S64x8192_0_0).PackedRows (EltTy.packing .bf16)
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  reduces_S64x8192_S64 : S64x8192.Reduces [1] S64
  shapeCasts_S64_S64x1 : S64.ShapeCasts S64x1
  broadcasts_S64x1_S64x8192 : S64x1.Broadcasts S64x8192
  reduces_S64x512_S64 : S64x512.Reduces [1] S64
  broadcasts_S64x1_S64x512 : S64x1.Broadcasts S64x512
  inb_S64x512_S64x512_0_0 : ∀ a, (![0, 0] : Fin 2 → Nat) a + S64x512.size a ≤ S64x512.size a
  h_S64x512 : 0 < S64x512.numel
  packedbf16_S64x512_S64x512_0_0 : (Rect.unit (s := S64x512) ![0, 0] S64x512.size inb_S64x512_S64x512_0_0).PackedRows (EltTy.packing .bf16)
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  dot_S256x8192_S8192x512_S256x512_1_0_0_1_n_n_wf : DotDims.WF S256x8192 S8192x512 S256x512 [1] [0] [0] [1] [] []
  dot_S64x8192_S8192x512_S64x512_1_0_0_1_n_n_wf : DotDims.WF S64x8192 S8192x512 S64x512 [1] [0] [0] [1] [] []
  dot_S64x512_S512x8192_S64x8192_1_0_0_1_n_n_wf : DotDims.WF S64x512 S512x8192 S64x8192 [1] [0] [0] [1] [] []
  dot_S128x8192_S8192x512_S128x512_1_0_0_1_n_n_wf : DotDims.WF S128x8192 S8192x512 S128x512 [1] [0] [0] [1] [] []
  dot_S128x512_S512x8192_S128x8192_1_0_0_1_n_n_wf : DotDims.WF S128x512 S512x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .bf16 = 32 ∨ (Rect.block (s := S8192x512) S8192x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S8192x512.size a
  hwx0_2 : ∀ i : grid0.Coords, EltTy.bits .bf16 = 32 ∨ (Rect.block (s := S8192x512) S256x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x8192.size a ≤ S8192x8192.size a
  hwx1_0 : ∀ i : grid1.Coords, EltTy.bits .f32 = 32 ∨ (Rect.block (s := S8192x8192) S64x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x8192.size a ≤ S512x8192.size a
  hwx1_2 : ∀ i : grid1.Coords, EltTy.bits .bf16 = 32 ∨ (Rect.block (s := S512x8192) S512x8192.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8192x512.size a ≤ S8192x512.size a
  hwx1_4 : ∀ i : grid1.Coords, EltTy.bits .bf16 = 32 ∨ (Rect.block (s := S8192x512) S8192x512.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S64x512.size a ≤ S8192x512.size a
  hwx1_5 : ∀ i : grid1.Coords, EltTy.bits .f32 = 32 ∨ (Rect.block (s := S8192x512) S64x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S64x512.size a ≤ S8192x512.size a
  hwx1_6 : ∀ i : grid1.Coords, EltTy.bits .bf16 = 32 ∨ (Rect.block (s := S8192x512) S64x512.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S64x8192.size a ≤ S8192x8192.size a
  hwx1_7 : ∀ i : grid1.Coords, EltTy.bits .bf16 = 32 ∨ (Rect.block (s := S8192x8192) S64x8192.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x8192.size a ≤ S8192x8192.size a
  hwx2_0 : ∀ i : grid2.Coords, EltTy.bits .bf16 = 32 ∨ (Rect.block (s := S8192x8192) S128x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x512.size a ≤ S8192x512.size a
  hwx2_1 : ∀ i : grid2.Coords, EltTy.bits .bf16 = 32 ∨ (Rect.block (s := S8192x512) S8192x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x8192.size a ≤ S512x8192.size a
  hwx2_2 : ∀ i : grid2.Coords, EltTy.bits .bf16 = 32 ∨ (Rect.block (s := S512x8192) S512x8192.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x8192.size a ≤ S8192x8192.size a
  hwx2_3 : ∀ i : grid2.Coords, EltTy.bits .f32 = 32 ∨ (Rect.block (s := S8192x8192) S128x8192.size (cc2_transform_3 i) (hinb2_3 i)).WholeWords (EltTy.packing .f32)

variable [Facts₀]

def dot_S256x8192_S8192x512_S256x512_1_0_0_1_n_n : DotDims S256x8192 S8192x512 S256x512 where
  lhsContracting := [1]
  rhsContracting := [0]
  lhsNonContracting := [0]
  rhsNonContracting := [1]
  lhsBatch := []
  rhsBatch := []
  wf := dot_S256x8192_S8192x512_S256x512_1_0_0_1_n_n_wf
def dot_S64x8192_S8192x512_S64x512_1_0_0_1_n_n : DotDims S64x8192 S8192x512 S64x512 where
  lhsContracting := [1]
  rhsContracting := [0]
  lhsNonContracting := [0]
  rhsNonContracting := [1]
  lhsBatch := []
  rhsBatch := []
  wf := dot_S64x8192_S8192x512_S64x512_1_0_0_1_n_n_wf
def dot_S64x512_S512x8192_S64x8192_1_0_0_1_n_n : DotDims S64x512 S512x8192 S64x8192 where
  lhsContracting := [1]
  rhsContracting := [0]
  lhsNonContracting := [0]
  rhsNonContracting := [1]
  lhsBatch := []
  rhsBatch := []
  wf := dot_S64x512_S512x8192_S64x8192_1_0_0_1_n_n_wf
def dot_S128x8192_S8192x512_S128x512_1_0_0_1_n_n : DotDims S128x8192 S8192x512 S128x512 where
  lhsContracting := [1]
  rhsContracting := [0]
  lhsNonContracting := [0]
  rhsNonContracting := [1]
  lhsBatch := []
  rhsBatch := []
  wf := dot_S128x8192_S8192x512_S128x512_1_0_0_1_n_n_wf
def dot_S128x512_S512x8192_S128x8192_1_0_0_1_n_n : DotDims S128x512 S512x8192 S128x8192 where
  lhsContracting := [1]
  rhsContracting := [0]
  lhsNonContracting := [0]
  rhsNonContracting := [1]
  lhsBatch := []
  rhsBatch := []
  wf := dot_S128x512_S512x8192_S128x8192_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S64x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S8192x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8_0) S64x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v8_1) S64x512.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v8_2) S64x8192.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v8_2) S128x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8_1) S8192x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S512x8192.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S128x8192.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x8192 : Shape := ⟨2, ![8192, 8192]⟩
abbrev S8192x512 : Shape := ⟨2, ![8192, 512]⟩
abbrev S512x8192 : Shape := ⟨2, ![512, 8192]⟩
abbrev S512 : Shape := ⟨1, ![512]⟩
abbrev S1x512 : Shape := ⟨2, ![1, 512]⟩
abbrev S_ : Shape := ⟨0, ![]⟩
abbrev S8192 : Shape := ⟨1, ![8192]⟩
abbrev S8192x1 : Shape := ⟨2, ![8192, 1]⟩

abbrev nBuf : Space → Nat
  | .hbm => 56
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x512, .f32⟩
  | .hbm, ⟨3, _⟩ => ⟨S8192x512, .f32⟩
  | .hbm, ⟨4, _⟩ => ⟨S512x8192, .f32⟩
  | .hbm, ⟨5, _⟩ => ⟨S512x8192, .f32⟩
  | .hbm, ⟨6, _⟩ => ⟨S512, .f32⟩
  | .hbm, ⟨7, _⟩ => ⟨S8192x512, .f32⟩
  | .hbm, ⟨8, _⟩ => ⟨S8192x512, .f32⟩
  | .hbm, ⟨9, _⟩ => ⟨S1x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S512x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x512, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192x1, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192x8192, .f32⟩
  | .hbm, ⟨55, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  transposes_S512x8192_S8192x512_1_0 : S512x8192.Transposes [1, 0] S8192x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S8192x512_S512x8192_1_0 : S8192x512.Transposes [1, 0] S512x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  reducesTo_S8192x512_S8192_d1 : S8192x512.ReducesTo [1] S8192
  bcast_S8192x1_S8192x512_0_1 : S8192x1.BroadcastsInDim S8192x512 (![0, 1] : Fin 2 → Fin S8192x512.rank)
  bcast_S_S8192x8192 : S_.BroadcastsInDim S8192x8192 (![] : Fin 0 → Fin S8192x8192.rank)
  dot_S8192x8192_S8192x512_S8192x512_1_0_0_1_n_n_wf : DotDims.WF S8192x8192 S8192x512 S8192x512 [1] [0] [0] [1] [] []
  dot_S8192x512_S512x8192_S8192x8192_1_0_0_1_n_n_wf : DotDims.WF S8192x512 S512x8192 S8192x8192 [1] [0] [0] [1] [] []
  dot_S8192x8192_S8192x8192_S8192x8192_1_0_0_1_n_n_wf : DotDims.WF S8192x8192 S8192x8192 S8192x8192 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx
import Mathlib.Algebra.BigOperators.Group.Finset.Basic
import Mathlib.Data.Finset.Fold

/-!
  The mathematics of the two programs, free of any program text.

  A graph-attention encoder and decoder on an N × N score matrix U and features X:
  K = tanh (U · Waᵀ + ba), S = softmax (K · H₁ᵀ) along each row, A = U ∘ S,
  Z = softmax (A · X · W₀) along each row, X' = σ ((U · Z) · W₁).

  One program associates the triple product as (A · X) · W₀ and writes the logistic
  function as 1 / (1 + e^{-x}).  The other forms X · W₀ first, subtracts from each of
  its rows that row's mean over the 512 columns (a shift of every logit of a row of Z by
  one amount, which a softmax does not see), and writes the logistic function in its
  two-branch form 1 / (1 + e^{-|x|}) for x ≥ 0, e^{-|x|} / (1 + e^{-|x|}) for x < 0.
  Both families are stated here over matrices as functions of two Fin coordinates, every
  operation the extended reals' own; that they agree on real entries is proved apart.
-/

noncomputable section

open scoped BigOperators

namespace Cert.Spec

open Idealize.ShloMosaic Idealize.ShloMosaic.ValueIdx

/-! ## The four float words the programs spell, as extended reals -/

/-- The word of -∞. -/
theorem ofBits_ninf : Ideal.ofBits .f32 0xFF800000#32 = ⊥ := by
  simp [Ideal.ofBits, Ideal.ieee]

/-- The word of 512.0, the number of columns a row's mean divides by. -/
theorem ofBits_512 : Ideal.ofBits .f32 0x44000000#32 = ((512 : ℝ) : EReal) := by
  simp [Ideal.ofBits, Ideal.ieee, -EReal.coe_mul]; norm_num

/-- The word of 1.0. -/
theorem ofBits_one : Ideal.ofBits .f32 0x3F800000#32 = 1 := by
  simp [Ideal.ofBits, Ideal.ieee, -EReal.coe_mul]; norm_num

/-- The word of +0.0. -/
theorem ofBits_zero : Ideal.ofBits .f32 0x00000000#32 = 0 := Ideal.ofBits_zero_f32

/-! ## Arrays of rank one and two as functions of their coordinates -/

/-- A rank-2 array read at its two coordinates. -/
def cur2 {a b : ℕ} (x : (⟨2, ![a, b]⟩ : Shape).Idx → EReal) (i : Fin a) (j : Fin b) : EReal := x (ix2 i j)

/-- A function of two coordinates as a rank-2 array. -/
def unc2 {a b : ℕ} (f : Fin a → Fin b → EReal) (i : (⟨2, ![a, b]⟩ : Shape).Idx) : EReal :=
  f ⟨(i 0).val, idx2_lt0 i⟩ ⟨(i 1).val, idx2_lt1 i⟩

/-- A rank-1 array read at its coordinate. -/
def cur1 {a : ℕ} (x : (⟨1, ![a]⟩ : Shape).Idx → EReal) (i : Fin a) : EReal := x (ix1 i)

/-- The transpose. -/
def trn {a b : ℕ} (f : Fin a → Fin b → EReal) (j : Fin b) (i : Fin a) : EReal := f i j

theorem cur2_unc2 {a b : ℕ} (f : Fin a → Fin b → EReal) : cur2 (unc2 f) = f := rfl

theorem unc2_ix2 {a b : ℕ} (f : Fin a → Fin b → EReal) (p : Fin a) (q : Fin b) : unc2 f (ix2 p q) = f p q := rfl

theorem unc2_cur2 {a b : ℕ} (x : (⟨2, ![a, b]⟩ : Shape).Idx → EReal) : unc2 (cur2 x) = x := by
  funext i
  show x (ix2 ⟨(i 0).val, _⟩ ⟨(i 1).val, _⟩) = x i
  exact congrArg x (eq_ix2 i).symm

/-! ## Products, row maxima, softmax -/

variable {n k m : ℕ}

/-- The matrix product. -/
def mm (A : Fin n → Fin k → EReal) (B : Fin k → Fin m → EReal) (i : Fin n) (j : Fin m) : EReal :=
  ∑ l : Fin k, A i l * B l j

/-- The largest entry of row i, from -∞. -/
def rowMax (L : Fin n → Fin m → EReal) (i : Fin n) : EReal :=
  (Finset.univ : Finset (Fin m)).fold max ⊥ (L i)

/-- The softmax along each row: e^{L i j - max_i} / Σ_j' e^{L i j' - max_i}. -/
def softmax (L : Fin n → Fin m → EReal) (i : Fin n) (j : Fin m) : EReal :=
  Ideal.div (Ideal.exp (L i j - rowMax L i)) (∑ j' : Fin m, Ideal.exp (L i j' - rowMax L i))

/-! ## The shared front: the attention weights A = U ∘ softmax (tanh (U · Waᵀ + ba) · H₁ᵀ) -/

/-- K = tanh (U · Waᵀ + ba), WaT the transposed weight. -/
def Kmat (U : Fin n → Fin k → EReal) (WaT : Fin k → Fin m → EReal) (ba : Fin m → EReal) (i : Fin n) (d : Fin m) : EReal :=
  Ideal.tanh (mm U WaT i d + ba d)

/-- A = U ∘ softmax (K · H₁ᵀ), H1T the transposed hidden matrix. -/
def A2 (U : Fin n → Fin k → EReal) (WaT : Fin k → Fin m → EReal) (ba : Fin m → EReal) (H1T : Fin m → Fin k → EReal)
    (i : Fin n) (j : Fin k) : EReal :=
  U i j * softmax (mm (Kmat U WaT ba) H1T) i j

/-! ## The encoder, two ways -/

/-- X · W₀ with each row's mean over the 512 columns taken off it. -/
def cen (X : Fin n → Fin k → EReal) (W0 : Fin k → Fin m → EReal) (j : Fin n) (d : Fin m) : EReal :=
  mm X W0 j d - Ideal.div (∑ d' : Fin m, mm X W0 j d') ((512 : ℝ) : EReal)

/-- Z through the centred product: softmax (A · cen X W₀). -/
def ZK (U X : Fin n → Fin n → EReal) (H1T : Fin m → Fin n → EReal) (W0 WaT : Fin n → Fin m → EReal) (ba : Fin m → EReal) :
    Fin n → Fin m → EReal :=
  softmax (mm (A2 U WaT ba H1T) (cen X W0))

/-- Z as written: softmax ((A · X) · W₀). -/
def ZR (U X : Fin n → Fin n → EReal) (H1T : Fin m → Fin n → EReal) (W0 WaT : Fin n → Fin m → EReal) (ba : Fin m → EReal) :
    Fin n → Fin m → EReal :=
  softmax (mm (mm (A2 U WaT ba H1T) X) W0)

/-! ## The decoder, two ways -/

/-- The logistic function as 1 / (1 + e^{-x}). -/
def sigR (x : EReal) : EReal := Ideal.div 1 (1 + Ideal.exp (-x))

/-- The logistic function in its two-branch form over |x| = max x (-x). -/
def sigK (x : EReal) : EReal :=
  if 0 ≤ x then Ideal.div 1 (1 + Ideal.exp (0 - max x (-x)))
  else Ideal.div (Ideal.exp (0 - max x (-x))) (1 + Ideal.exp (0 - max x (-x)))

/-- X' through the two-branch logistic function of (U · Z) · W₁, Z the centred one. -/
def XpK (U X : Fin n → Fin n → EReal) (H1T : Fin m → Fin n → EReal) (W0 WaT : Fin n → Fin m → EReal) (ba : Fin m → EReal)
    (W1 : Fin m → Fin n → EReal) (i j : Fin n) : EReal :=
  sigK (mm (mm U (ZK U X H1T W0 WaT ba)) W1 i j)

/-- X' as written: 1 / (1 + e^{-((U · Z) · W₁)}). -/
def XpR (U X : Fin n → Fin n → EReal) (H1T : Fin m → Fin n → EReal) (W0 WaT : Fin n → Fin m → EReal) (ba : Fin m → EReal)
    (W1 : Fin m → Fin n → EReal) (i j : Fin n) : EReal :=
  sigR (mm (mm U (ZR U X H1T W0 WaT ba)) W1 i j)

/-! ## The two results as arrays, as functions of the seven argument arrays

The arguments in the programs' order: x0 = U, x1 = X, x2 = H₁ (N × D), x3 = W₀ (N × D),
x4 = W₁ (D × N), x5 = Wa (D × N), x6 = ba (D).  H₁ and Wa enter transposed. -/

section Arrays

abbrev A88 := (⟨2, ![8192, 8192]⟩ : Shape).Idx → EReal
abbrev A85 := (⟨2, ![8192, 512]⟩ : Shape).Idx → EReal
abbrev A58 := (⟨2, ![512, 8192]⟩ : Shape).Idx → EReal
abbrev A5 := (⟨1, ![512]⟩ : Shape).Idx → EReal

/-- Z, the centred way. -/
def arrZK (x0 x1 : A88) (x2 x3 : A85) (x5 : A58) (x6 : A5) : A85 :=
  unc2 (ZK (cur2 x0) (cur2 x1) (trn (cur2 x2)) (cur2 x3) (trn (cur2 x5)) (cur1 x6))

/-- Z, as written. -/
def arrZR (x0 x1 : A88) (x2 x3 : A85) (x5 : A58) (x6 : A5) : A85 :=
  unc2 (ZR (cur2 x0) (cur2 x1) (trn (cur2 x2)) (cur2 x3) (trn (cur2 x5)) (cur1 x6))

/-- X', the two-branch way over the centred Z. -/
def arrXpK (x0 x1 : A88) (x2 x3 : A85) (x4 x5 : A58) (x6 : A5) : A88 :=
  unc2 (XpK (cur2 x0) (cur2 x1) (trn (cur2 x2)) (cur2 x3) (trn (cur2 x5)) (cur1 x6) (cur2 x4))

/-- X', as written. -/
def arrXpR (x0 x1 : A88) (x2 x3 : A85) (x4 x5 : A58) (x6 : A5) : A88 :=
  unc2 (XpR (cur2 x0) (cur2 x1) (trn (cur2 x2)) (cur2 x3) (trn (cur2 x5)) (cur1 x6) (cur2 x4))

end Arrays

end Cert.Spec

end
-- ==== Proof.KVal0.lean ====
import proofs.«424005_j21242908246464_3_alg».proof.Proof.Gen.KernelIdeal.Frame
import proofs.«424005_j21242908246464_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen Cert.Spec

variable (V : (c : Dev nD) → (b : Ref sig .tc) → Buf (Elt Ideal) ((c : Thread nD τ).loc b))

namespace Centred

/-- The zero offsets of a whole-buffer access, as the constant function. -/
theorem hz : (![0, 0] : Fin 2 → Nat) = fun _ => 0 := funext fun a => by fin_cases a <;> rfl

/-! ## The product's operand indices, axis by axis -/

theorem lhs_mm0_0 (i : S256x512.Idx) (q : dot_S256x8192_S8192x512_S256x512_1_0_0_1_n_n.contr.Idx) :
    (dot_S256x8192_S8192x512_S256x512_1_0_0_1_n_n.lhsIdx i q 0).val = (i 0).val := by
  unfold DotDims.lhsIdx
  rw [dif_neg (show ¬(0 : Fin S256x8192.rank) ∈ dot_S256x8192_S8192x512_S256x512_1_0_0_1_n_n.lhsBatch by decide), dif_pos (show (0 : Fin S256x8192.rank) ∈ dot_S256x8192_S8192x512_S256x512_1_0_0_1_n_n.lhsNonContracting by decide)]
  rfl
theorem lhs_mm0_1 (i : S256x512.Idx) (q : dot_S256x8192_S8192x512_S256x512_1_0_0_1_n_n.contr.Idx) :
    (dot_S256x8192_S8192x512_S256x512_1_0_0_1_n_n.lhsIdx i q 1).val = (q ⟨0, by decide⟩).val :=
  dot_S256x8192_S8192x512_S256x512_1_0_0_1_n_n.lhsIdx_val_of_single rfl i q
theorem rhs_mm0_0 (i : S256x512.Idx) (q : dot_S256x8192_S8192x512_S256x512_1_0_0_1_n_n.contr.Idx) :
    (dot_S256x8192_S8192x512_S256x512_1_0_0_1_n_n.rhsIdx i q 0).val = (q ⟨0, by decide⟩).val :=
  dot_S256x8192_S8192x512_S256x512_1_0_0_1_n_n.rhsIdx_val_of_single rfl i q
theorem rhs_mm0_1 (i : S256x512.Idx) (q : dot_S256x8192_S8192x512_S256x512_1_0_0_1_n_n.contr.Idx) :
    (dot_S256x8192_S8192x512_S256x512_1_0_0_1_n_n.rhsIdx i q 1).val = (i 1).val := by
  unfold DotDims.rhsIdx
  rw [dif_neg (show ¬(1 : Fin S8192x512.rank) ∈ dot_S256x8192_S8192x512_S256x512_1_0_0_1_n_n.rhsBatch by decide), dif_pos (show (1 : Fin S8192x512.rank) ∈ dot_S256x8192_S8192x512_S256x512_1_0_0_1_n_n.rhsNonContracting by decide)]
  rfl

/-- The block product at (p, q): the sum over the 8192 contraction coordinates. -/
theorem mm0_apply (a : FVec Ideal S256x8192 .bf16) (b : FVec Ideal S8192x512 .bf16) (p : Fin 256) (q : Fin 512) :
    matmul dot_S256x8192_S8192x512_S256x512_1_0_0_1_n_n none a b (constant (F := Ideal) S256x512 .f32 0x00000000#32) (ix2 p q)
      = ∑ k : Fin 8192, a (ix2 p k) * b (ix2 k q) := by
  refine (Ideal.matmul_constant_zero_apply dot_S256x8192_S8192x512_S256x512_1_0_0_1_n_n none a b (ix2 p q)).trans ?_
  rw [← Equiv.sum_comp (ValueIdx.contrEquiv1 dot_S256x8192_S8192x512_S256x512_1_0_0_1_n_n 8192 rfl rfl).symm]
  refine Finset.sum_congr rfl fun k _ => ?_
  have hk := ValueIdx.contrEquiv1_symm_val dot_S256x8192_S8192x512_S256x512_1_0_0_1_n_n 8192 rfl rfl k
  have el : dot_S256x8192_S8192x512_S256x512_1_0_0_1_n_n.lhsIdx (ix2 p q) ((ValueIdx.contrEquiv1 dot_S256x8192_S8192x512_S256x512_1_0_0_1_n_n 8192 rfl rfl).symm k) = ix2 p k := funext fun a => Fin.ext (by
    match a with
    | ⟨0, _⟩ => exact lhs_mm0_0 _ _
    | ⟨1, _⟩ => exact (lhs_mm0_1 _ _).trans hk)
  have er : dot_S256x8192_S8192x512_S256x512_1_0_0_1_n_n.rhsIdx (ix2 p q) ((ValueIdx.contrEquiv1 dot_S256x8192_S8192x512_S256x512_1_0_0_1_n_n 8192 rfl rfl).symm k) = ix2 k q := funext fun a => Fin.ext (by
    match a with
    | ⟨0, _⟩ => exact (rhs_mm0_0 _ _).trans hk
    | ⟨1, _⟩ => exact rhs_mm0_1 _ _)
  rw [el, er]

/-! ## The keepdims column forms at literal sizes -/

/-- A length-256 vector viewed as a 256 × 1 column reads its entry at the row. -/
theorem col_cast_apply {α : Type} (x : S256.Idx → α) (h : S256.ShapeCasts S256x1) (p : Fin 256) (u : Fin 1) :
    shapeCast S256x1 x h (ix2 p u) = x (ix1 p) :=
  shapeCast_apply x h _ _ (by
    have hu : u.val = 0 := by omega
    rw [Shape.rowMajor_val_two, Shape.rowMajor_val_one]
    show p.val = p.val * 1 + u.val
    omega)

/-- A 256 × 1 column spread over 512 columns reads the column's entry at the row. -/
theorem col_bcast_apply {α : Type} (x : S256x1.Idx → α) (h : S256x1.Broadcasts S256x512) (p : Fin 256) (q : Fin 512) :
    broadcastTo S256x512 x h (ix2 p q) = x (ix2 p (0 : Fin 1)) := by
  refine broadcastTo_apply x h (ix2 p q) (ix2 p (0 : Fin 1)) fun ax => ?_
  match ax with
  | ⟨0, _⟩ => rfl
  | ⟨1, _⟩ => rfl

/-- The row sum of a 256 × 512 block over its 512 columns. -/
theorem row_sum_apply (x : FVec Ideal S256x512 .f32) (h : S256x512.Reduces [1] S256) (hφ : FKind.Formats .f32)
    (hacc : (0x00000000#32 : BitVec 32) = FKind.add.neutral .f32 hφ) (p : Fin 256) :
    multiReduction (F := Ideal) .add [1] S256 x 0x00000000#32 h hφ hacc (ix1 p) = ∑ q : Fin 512, x (ix2 p q) := by
  refine (Ideal.multiReduction_add_single x 0x00000000#32 h hφ hacc (ix1 p)).trans ?_
  show ∑ q : Fin 512, x (h.lift (ix1 p) q) = _
  refine Finset.sum_congr rfl fun q _ => congrArg x ?_
  funext a; apply Fin.ext
  match a with
  | ⟨0, _⟩ => rfl
  | ⟨1, _⟩ => rfl

/-! ## The body's result at an entry -/

/-- The stored block at (p, q): the product's entry less the mean of the product's row p over its 512 columns. -/
theorem pay0_apply (x0 : Vec Ideal S256x8192 .f32) (x1 : Vec Ideal S8192x512 .bf16) (p : Fin 256) (q : Fin 512) :
    k0_pay1 (F := Ideal) x0 x1 (ix2 p q)
      = (∑ k : Fin 8192, x0 (ix2 p k) * x1 (ix2 k q))
        - Ideal.div (∑ q' : Fin 512, ∑ k : Fin 8192, x0 (ix2 p k) * x1 (ix2 k q')) (Ideal.ofBits .f32 0x44000000#32) := by
  unfold k0_pay1
  dsimp only
  rw [shapeCast_self]
  refine (truncf_apply (φ := .f32) (ψ := .bf16) _ bitsLt_bf16_f32 (ix2 p q)).trans ?_
  refine (subf_apply _ _ _).trans ?_
  refine congrArg₂ (fun a b : EReal => a - b) ?_ ?_
  · exact mm0_apply _ _ p q
  · refine (col_bcast_apply _ _ p q).trans ?_
    refine (divf_apply _ _ _).trans ?_
    refine congrArg₂ Ideal.div ?_ rfl
    refine (col_cast_apply _ _ p 0).trans ?_
    refine (row_sum_apply _ _ _ _ p).trans ?_
    exact Finset.sum_congr rfl fun q' _ => mm0_apply _ _ p q'

/-! ## From blocks to the array -/

/-- The block maps over the 32 grid points: the X window and the output window move together down the rows,
    one block per point; the W₀ window stays on its one block. -/
theorem blocks0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is rows 256·t … 256·t + 255 of the centred product. -/
theorem flushed0_eq (c : Dev nD) (t : Fin cfg0.N) :
    (dat0 (F := Ideal) V c).flushed 2 t = ((cfg0.win 2).blk t).view.read (Elt Ideal)
      (unc2 (cen (cur2 (V c main_arg1 : S8192x8192.Idx → EReal)) (cur2 (V c main_v4 : S8192x512.Idx → EReal)))) := by
  show (cfg0.win 2).cut (grid0.coords t) ((dat0 (F := Ideal) V c).after 2 t) = _
  rw [after0_2]
  unfold out0_2
  rw [View.canon_unit_zero hz]
  simp only [View.ld_unit_zero (S := S256x8192) hz, View.ld_unit_zero (S := S8192x512) hz]
  obtain ⟨e0, e1, e2, e3, e4, e5⟩ := blocks0 t
  have ht : t.val < 32 := lt_of_lt_of_eq t.isLt N_0
  funext j
  obtain ⟨p, q, rfl⟩ : ∃ (p : Fin 256) (q : Fin 512), j = ix2 p q := ⟨j 0, j 1, eq_ix2 j⟩
  show k0_pay1 (F := Ideal) (iblk0 V c 0 t) (iblk0 V c 1 t) (ix2 p q)
    = unc2 (cen (cur2 (V c main_arg1 : S8192x8192.Idx → EReal)) (cur2 (V c main_v4 : S8192x512.Idx → EReal))) (((cfg0.win 2).blk t).view.emb (ix2 p q))
  refine (pay0_apply (iblk0 V c 0 t) (iblk0 V c 1 t) p q).trans ?_
  have hp : p.val < 256 := p.isLt
  have hq : q.val < 512 := q.isLt
  -- the row of the arrays this block row is
  have hr : t.val * 256 + p.val < 8192 := by omega
  have hout : ((cfg0.win 2).blk t).view.emb (ix2 p q) = ix2 (⟨t.val * 256 + p.val, hr⟩ : Fin 8192) q := by
    funext a; apply Fin.ext
    match a with
    | ⟨0, _⟩ => show win0_2.index t (0 : Fin 2) * 256 + 1 * p.val = t.val * 256 + p.val; omega
    | ⟨1, _⟩ => show win0_2.index t (1 : Fin 2) * 512 + 1 * q.val = q.val; omega
  have hx : ∀ k : Fin 8192, iblk0 V c 0 t (ix2 p k) = cur2 (V c main_arg1 : S8192x8192.Idx → EReal) ⟨t.val * 256 + p.val, hr⟩ k := by
    intro k
    show V c main_arg1 (((cfg0.win 0).blk t).view.emb (ix2 p k)) = V c main_arg1 (ix2 (⟨t.val * 256 + p.val, hr⟩ : Fin 8192) k)
    refine congrArg (V c main_arg1) ?_
    funext a; apply Fin.ext
    have hk : k.val < 8192 := k.isLt
    match a with
    | ⟨0, _⟩ => show win0_0.index t (0 : Fin 2) * 256 + 1 * p.val = t.val * 256 + p.val; omega
    | ⟨1, _⟩ => show win0_0.index t (1 : Fin 2) * 8192 + 1 * k.val = k.val; omega
  have hw : ∀ (k : Fin 8192) (q' : Fin 512), iblk0 V c 1 t (ix2 k q') = cur2 (V c main_v4 : S8192x512.Idx → EReal) k q' := by
    intro k q'
    show V c main_v4 (((cfg0.win 1).blk t).view.emb (ix2 k q')) = V c main_v4 (ix2 k q')
    refine congrArg (V c main_v4) ?_
    funext a; apply Fin.ext
    match a with
    | ⟨0, _⟩ => show win0_1.index t (0 : Fin 2) * 8192 + 1 * k.val = k.val; omega
    | ⟨1, _⟩ => show win0_1.index t (1 : Fin 2) * 512 + 1 * q'.val = q'.val; omega
  refine Eq.trans ?_ (congrArg (unc2 (cen (cur2 (V c main_arg1 : S8192x8192.Idx → EReal)) (cur2 (V c main_v4 : S8192x512.Idx → EReal)))) hout.symm)
  show _ = (∑ l : Fin 8192, cur2 (V c main_arg1 : S8192x8192.Idx → EReal) ⟨t.val * 256 + p.val, hr⟩ l * cur2 (V c main_v4 : S8192x512.Idx → EReal) l q)
    - Ideal.div (∑ d' : Fin 512, ∑ l : Fin 8192, cur2 (V c main_arg1 : S8192x8192.Idx → EReal) ⟨t.val * 256 + p.val, hr⟩ l * cur2 (V c main_v4 : S8192x512.Idx → EReal) l d') ((512 : ℝ) : EReal)
  exact congrArg₂ (fun a b : EReal => a - b)
    (Finset.sum_congr rfl fun k _ => congrArg₂ (fun a b : EReal => a * b) (hx k) (hw k q))
    (congrArg₂ Ideal.div
      (Finset.sum_congr rfl fun q' _ => Finset.sum_congr rfl fun k _ => congrArg₂ (fun a b : EReal => a * b) (hx k) (hw k q'))
      ofBits_512)

/-- An index of the result array is in point t's block iff each coordinate is in the block's range on its axis. -/
theorem mem_blk0 (t : Fin cfg0.N) (i : S8192x512.Idx) :
    i ∈ ((cfg0.win 2).blk t).view.set ↔ ∀ a : Fin 2, win0_2.index t a * S256x512.size a ≤ (i a).val ∧ (i a).val < win0_2.index t a * S256x512.size a + S256x512.size a := by
  show i ∈ ((View.whole main_v7).slice (win0_2.rect t)).set ↔ _
  rw [View.set_slice_whole, Rect.mem_set_unit]
  exact Iff.rfl

/-- Row r of the result is written back by point r / 256. -/
theorem cover0 (i : S8192x512.Idx) : ∃ t : Fin cfg0.N, (cfg0.win 2).flush t = true ∧ i ∈ ((cfg0.win 2).blk t).view.set := by
  have hi0 : (i 0).val < 8192 := (i 0).isLt
  have hi1 : (i 1).val < 512 := (i 1).isLt
  have hN : (i 0).val / 256 < cfg0.N := lt_of_lt_of_eq (show (i 0).val / 256 < 32 by omega) N_0.symm
  obtain ⟨e0, e1, e2, e3, e4, e5⟩ := blocks0 ⟨(i 0).val / 256, hN⟩
  refine ⟨⟨(i 0).val / 256, hN⟩, flush0_2 _, ?_⟩
  rw [mem_blk0]
  intro a
  match a with
  | ⟨0, _⟩ =>
    show win0_2.index ⟨(i 0).val / 256, hN⟩ (0 : Fin 2) * 256 ≤ (i 0).val ∧ (i 0).val < win0_2.index ⟨(i 0).val / 256, hN⟩ (0 : Fin 2) * 256 + 256
    rw [e4]; show (i 0).val / 256 * 256 ≤ (i 0).val ∧ (i 0).val < (i 0).val / 256 * 256 + 256; omega
  | ⟨1, _⟩ =>
    show win0_2.index ⟨(i 0).val / 256, hN⟩ (1 : Fin 2) * 512 ≤ (i 1).val ∧ (i 1).val < win0_2.index ⟨(i 0).val / 256, hN⟩ (1 : Fin 2) * 512 + 512
    rw [e5]; omega

end Centred

open Centred

/-- The first call leaves in its result array the product X · W₀ with each row's mean taken off,
    X and W₀ the arrays its two input windows stage, as the call finds them. -/
theorem final0 (c : Dev nD) :
    (dat0 (F := Ideal) V c).arrAt 2 cfg0.N
      = unc2 (cen (cur2 (V c main_arg1 : S8192x8192.Idx → EReal)) (cur2 (V c main_v4 : S8192x512.Idx → EReal))) :=
  (dat0 (F := Ideal) V c).arrAt_eq_of_cover 2 _ (fun t _ => flushed0_eq V c t) cover0

end Cert.KernelIdeal.Hand

end
-- ==== Proof.KVal1.lean ====
import proofs.«424005_j21242908246464_3_alg».proof.Proof.Gen.KernelIdeal.Frame
import proofs.«424005_j21242908246464_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen Cert.Spec

variable (V : (c : Dev nD) → (b : Ref sig .tc) → Buf (Elt Ideal) ((c : Thread nD τ).loc b))

/-- What the second call computes for both copies of Z, as a function of the five arrays its input
    windows stage: softmax along each row of A · C, A the attention weights of U. -/
abbrev Zof (c : Dev nD) : Fin 8192 → Fin 512 → EReal :=
  softmax (mm (A2 (cur2 (V c main_arg0 : S8192x8192.Idx → EReal)) (cur2 (V c main_v1 : S8192x512.Idx → EReal))
      (cur2 (V c main_v6 : S1x512.Idx → EReal) 0) (cur2 (V c main_v3 : S512x8192.Idx → EReal)))
    (cur2 (V c main_v7 : S8192x512.Idx → EReal)))

/-! # The second call, read: from the Z block's one term to the three result arrays

Each block of 64 rows of Z is the row softmax of (the block's rows of A) · C; the rows of A are the
block's rows of U against their own softmax weights; every stage reads one row of U only, so the
blocks, one per grid point, are the rows of one function of the five whole arrays. -/

namespace Attention

/-! ## Each row of the result depends on one row of U

Every stage — a product with a fixed right factor, a row maximum, a row softmax, the entrywise
product with U — reads of its left operand only the row it writes. So a block of rows of U gives
the same rows of Z as the whole of U does. -/

section Rows
variable {n n' k m : ℕ}

theorem mm_row {A : Fin n → Fin k → EReal} {A' : Fin n' → Fin k → EReal} (B : Fin k → Fin m → EReal)
    {i : Fin n} {i' : Fin n'} (h : A i = A' i') : mm A B i = mm A' B i' := by
  funext j; unfold mm; rw [h]

theorem rowMax_row {L : Fin n → Fin m → EReal} {L' : Fin n' → Fin m → EReal} {i : Fin n} {i' : Fin n'}
    (h : L i = L' i') : rowMax L i = rowMax L' i' := by
  unfold rowMax; rw [h]

theorem softmax_row {L : Fin n → Fin m → EReal} {L' : Fin n' → Fin m → EReal} {i : Fin n} {i' : Fin n'}
    (h : L i = L' i') : softmax L i = softmax L' i' := by
  funext j; unfold softmax; rw [rowMax_row h, h]

theorem Kmat_row {U : Fin n → Fin k → EReal} {U' : Fin n' → Fin k → EReal} (WaT : Fin k → Fin m → EReal)
    (ba : Fin m → EReal) {i : Fin n} {i' : Fin n'} (h : U i = U' i') : Kmat U WaT ba i = Kmat U' WaT ba i' := by
  funext d; unfold Kmat; rw [mm_row WaT h]

theorem A2_row {U : Fin n → Fin k → EReal} {U' : Fin n' → Fin k → EReal} (WaT : Fin k → Fin m → EReal)
    (ba : Fin m → EReal) (H1T : Fin m → Fin k → EReal) {i : Fin n} {i' : Fin n'} (h : U i = U' i') :
    A2 U WaT ba H1T i = A2 U' WaT ba H1T i' := by
  funext j; unfold A2; rw [softmax_row (mm_row H1T (Kmat_row WaT ba h)), h]

end Rows

/-! ## The two matrix-unit products read at an index -/

theorem lhs_nodes_0 (i : S64x512.Idx) (q : dot_S64x8192_S8192x512_S64x512_1_0_0_1_n_n.contr.Idx) :
    (dot_S64x8192_S8192x512_S64x512_1_0_0_1_n_n.lhsIdx i q 0).val = (i 0).val := by
  unfold DotDims.lhsIdx
  rw [dif_neg (show ¬(0 : Fin S64x8192.rank) ∈ dot_S64x8192_S8192x512_S64x512_1_0_0_1_n_n.lhsBatch by decide), dif_pos (show (0 : Fin S64x8192.rank) ∈ dot_S64x8192_S8192x512_S64x512_1_0_0_1_n_n.lhsNonContracting by decide)]
  rfl
theorem lhs_nodes_1 (i : S64x512.Idx) (q : dot_S64x8192_S8192x512_S64x512_1_0_0_1_n_n.contr.Idx) :
    (dot_S64x8192_S8192x512_S64x512_1_0_0_1_n_n.lhsIdx i q 1).val = (q ⟨0, by decide⟩).val :=
  dot_S64x8192_S8192x512_S64x512_1_0_0_1_n_n.lhsIdx_val_of_single rfl i q
theorem rhs_nodes_0 (i : S64x512.Idx) (q : dot_S64x8192_S8192x512_S64x512_1_0_0_1_n_n.contr.Idx) :
    (dot_S64x8192_S8192x512_S64x512_1_0_0_1_n_n.rhsIdx i q 0).val = (q ⟨0, by decide⟩).val :=
  dot_S64x8192_S8192x512_S64x512_1_0_0_1_n_n.rhsIdx_val_of_single rfl i q
theorem rhs_nodes_1 (i : S64x512.Idx) (q : dot_S64x8192_S8192x512_S64x512_1_0_0_1_n_n.contr.Idx) :
    (dot_S64x8192_S8192x512_S64x512_1_0_0_1_n_n.rhsIdx i q 1).val = (i 1).val := by
  unfold DotDims.rhsIdx
  rw [dif_neg (show ¬(1 : Fin S8192x512.rank) ∈ dot_S64x8192_S8192x512_S64x512_1_0_0_1_n_n.rhsBatch by decide), dif_pos (show (1 : Fin S8192x512.rank) ∈ dot_S64x8192_S8192x512_S64x512_1_0_0_1_n_n.rhsNonContracting by decide)]
  rfl

/-- A matrix-unit product onto a zero accumulator, read at (p, q): the sum over the contracted
    axis of row p of the left factor against column q of the right one. -/
theorem matmul_nodes_apply {φ₁ φ₂ : FTy} (lhs : FVec Ideal S64x8192 φ₁) (rhs : FVec Ideal S8192x512 φ₂) (p : Fin 64) (q : Fin 512) :
    matmul dot_S64x8192_S8192x512_S64x512_1_0_0_1_n_n none lhs rhs (constant (F := Ideal) S64x512 .f32 0x00000000#32) (ix2 p q)
      = mm (cur2 (lhs : S64x8192.Idx → EReal)) (cur2 (rhs : S8192x512.Idx → EReal)) p q := by
  refine (Ideal.matmul_constant_zero_apply dot_S64x8192_S8192x512_S64x512_1_0_0_1_n_n none lhs rhs (ix2 p q)).trans ?_
  rw [← Equiv.sum_comp (ValueIdx.contrEquiv1 dot_S64x8192_S8192x512_S64x512_1_0_0_1_n_n 8192 rfl rfl).symm]
  refine Finset.sum_congr rfl fun k _ => ?_
  have hk := ValueIdx.contrEquiv1_symm_val dot_S64x8192_S8192x512_S64x512_1_0_0_1_n_n 8192 rfl rfl k
  have el : dot_S64x8192_S8192x512_S64x512_1_0_0_1_n_n.lhsIdx (ix2 p q) ((ValueIdx.contrEquiv1 dot_S64x8192_S8192x512_S64x512_1_0_0_1_n_n 8192 rfl rfl).symm k) = ix2 p k := funext fun a => Fin.ext (by
    match a with
    | ⟨0, _⟩ => exact lhs_nodes_0 _ _
    | ⟨1, _⟩ => exact (lhs_nodes_1 _ _).trans hk)
  have er : dot_S64x8192_S8192x512_S64x512_1_0_0_1_n_n.rhsIdx (ix2 p q) ((ValueIdx.contrEquiv1 dot_S64x8192_S8192x512_S64x512_1_0_0_1_n_n 8192 rfl rfl).symm k) = ix2 k q := funext fun a => Fin.ext (by
    match a with
    | ⟨0, _⟩ => exact (rhs_nodes_0 _ _).trans hk
    | ⟨1, _⟩ => exact rhs_nodes_1 _ _)
  rw [el, er]
  rfl

theorem lhs_feat_0 (i : S64x8192.Idx) (q : dot_S64x512_S512x8192_S64x8192_1_0_0_1_n_n.contr.Idx) :
    (dot_S64x512_S512x8192_S64x8192_1_0_0_1_n_n.lhsIdx i q 0).val = (i 0).val := by
  unfold DotDims.lhsIdx
  rw [dif_neg (show ¬(0 : Fin S64x512.rank) ∈ dot_S64x512_S512x8192_S64x8192_1_0_0_1_n_n.lhsBatch by decide), dif_pos (show (0 : Fin S64x512.rank) ∈ dot_S64x512_S512x8192_S64x8192_1_0_0_1_n_n.lhsNonContracting by decide)]
  rfl
theorem lhs_feat_1 (i : S64x8192.Idx) (q : dot_S64x512_S512x8192_S64x8192_1_0_0_1_n_n.contr.Idx) :
    (dot_S64x512_S512x8192_S64x8192_1_0_0_1_n_n.lhsIdx i q 1).val = (q ⟨0, by decide⟩).val :=
  dot_S64x512_S512x8192_S64x8192_1_0_0_1_n_n.lhsIdx_val_of_single rfl i q
theorem rhs_feat_0 (i : S64x8192.Idx) (q : dot_S64x512_S512x8192_S64x8192_1_0_0_1_n_n.contr.Idx) :
    (dot_S64x512_S512x8192_S64x8192_1_0_0_1_n_n.rhsIdx i q 0).val = (q ⟨0, by decide⟩).val :=
  dot_S64x512_S512x8192_S64x8192_1_0_0_1_n_n.rhsIdx_val_of_single rfl i q
theorem rhs_feat_1 (i : S64x8192.Idx) (q : dot_S64x512_S512x8192_S64x8192_1_0_0_1_n_n.contr.Idx) :
    (dot_S64x512_S512x8192_S64x8192_1_0_0_1_n_n.rhsIdx i q 1).val = (i 1).val := by
  unfold DotDims.rhsIdx
  rw [dif_neg (show ¬(1 : Fin S512x8192.rank) ∈ dot_S64x512_S512x8192_S64x8192_1_0_0_1_n_n.rhsBatch by decide), dif_pos (show (1 : Fin S512x8192.rank) ∈ dot_S64x512_S512x8192_S64x8192_1_0_0_1_n_n.rhsNonContracting by decide)]
  rfl

/-- A matrix-unit product onto a zero accumulator, read at (p, q): the sum over the contracted
    axis of row p of the left factor against column q of the right one. -/
theorem matmul_feat_apply {φ₁ φ₂ : FTy} (lhs : FVec Ideal S64x512 φ₁) (rhs : FVec Ideal S512x8192 φ₂) (p : Fin 64) (q : Fin 8192) :
    matmul dot_S64x512_S512x8192_S64x8192_1_0_0_1_n_n none lhs rhs (constant (F := Ideal) S64x8192 .f32 0x00000000#32) (ix2 p q)
      = mm (cur2 (lhs : S64x512.Idx → EReal)) (cur2 (rhs : S512x8192.Idx → EReal)) p q := by
  refine (Ideal.matmul_constant_zero_apply dot_S64x512_S512x8192_S64x8192_1_0_0_1_n_n none lhs rhs (ix2 p q)).trans ?_
  rw [← Equiv.sum_comp (ValueIdx.contrEquiv1 dot_S64x512_S512x8192_S64x8192_1_0_0_1_n_n 512 rfl rfl).symm]
  refine Finset.sum_congr rfl fun k _ => ?_
  have hk := ValueIdx.contrEquiv1_symm_val dot_S64x512_S512x8192_S64x8192_1_0_0_1_n_n 512 rfl rfl k
  have el : dot_S64x512_S512x8192_S64x8192_1_0_0_1_n_n.lhsIdx (ix2 p q) ((ValueIdx.contrEquiv1 dot_S64x512_S512x8192_S64x8192_1_0_0_1_n_n 512 rfl rfl).symm k) = ix2 p k := funext fun a => Fin.ext (by
    match a with
    | ⟨0, _⟩ => exact lhs_feat_0 _ _
    | ⟨1, _⟩ => exact (lhs_feat_1 _ _).trans hk)
  have er : dot_S64x512_S512x8192_S64x8192_1_0_0_1_n_n.rhsIdx (ix2 p q) ((ValueIdx.contrEquiv1 dot_S64x512_S512x8192_S64x8192_1_0_0_1_n_n 512 rfl rfl).symm k) = ix2 k q := funext fun a => Fin.ext (by
    match a with
    | ⟨0, _⟩ => exact (rhs_feat_0 _ _).trans hk
    | ⟨1, _⟩ => exact rhs_feat_1 _ _)
  rw [el, er]
  rfl

/-! ## The lane reductions and the column broadcast read at an index -/

/-- A length-a vector recast as an [a, 1] column and broadcast to [a, b] reads, at (p, c), the vector at p. -/
theorem broadcastTo_col_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix1 p) := by
  refine (broadcastTo_apply _ hb (ix2 p c) (ix2 p (0 : Fin 1)) fun ax => ?_).trans ?_
  · match ax with
    | ⟨0, _⟩ =>
      show p.val = if a = 1 then 0 else p.val
      split
      · have := p.isLt; omega
      · rfl
    | ⟨1, _⟩ => rfl
  · refine shapeCast_apply v hc (ix2 p (0 : Fin 1)) (ix1 p) ?_
    rw [Shape.rowMajor_val_one, Shape.rowMajor_val_two]
    show p.val = p.val * 1 + 0
    omega

/-- Row p of an [a, b] array with column k put back is the entry (p, k). -/
theorem lift_lane {a b : ℕ} (hr : (⟨2, ![a, b]⟩ : Shape).Reduces [1] ⟨1, ![a]⟩) (p : Fin a) (k : Fin b) :
    hr.lift (ix1 p) k = ix2 p k :=
  funext fun ax => Fin.ext (by match ax with | ⟨0, _⟩ => rfl | ⟨1, _⟩ => rfl)

/-- The maximum along the lanes, from the word of -∞, is the row's maximum from ⊥. -/
theorem lane_max {a b : ℕ} (w : FVec Ideal ⟨2, ![a, b]⟩ .f32) (hr : (⟨2, ![a, b]⟩ : Shape).Reduces [1] ⟨1, ![a]⟩) (p : Fin a) :
    multiReduction .maximumf [1] ⟨1, ![a]⟩ w 0xFF800000#32 hr (.inl rfl) rfl (ix1 p)
      = rowMax (cur2 (w : (⟨2, ![a, b]⟩ : Shape).Idx → EReal)) p := by
  refine (Ideal.multiReduction_maximumf_single w 0xFF800000#32 hr (.inl rfl) rfl (ix1 p)).trans ?_
  show (Finset.univ : Finset (Fin b)).fold max (Ideal.ofBits .f32 0xFF800000#32) (fun k => w (hr.lift (ix1 p) k)) = _
  rw [ofBits_ninf]
  unfold rowMax
  have e : (fun k => w (hr.lift (ix1 p) k)) = cur2 (w : (⟨2, ![a, b]⟩ : Shape).Idx → EReal) p :=
    funext fun k => congrArg w (lift_lane hr p k)
  rw [e]; rfl

/-- The sum along the lanes is the row's sum. -/
theorem lane_sum {a b : ℕ} (w : FVec Ideal ⟨2, ![a, b]⟩ .f32) (hr : (⟨2, ![a, b]⟩ : Shape).Reduces [1] ⟨1, ![a]⟩) (p : Fin a) :
    multiReduction .add [1] ⟨1, ![a]⟩ w 0x00000000#32 hr (.inl rfl) rfl (ix1 p) = ∑ k : Fin b, w (ix2 p k) := by
  refine (Ideal.multiReduction_add_single w 0x00000000#32 hr (.inl rfl) rfl (ix1 p)).trans ?_
  exact Finset.sum_congr rfl fun k _ => congrArg w (lift_lane hr p k)

/-- The row softmax as the kernel spells it — the row maximum taken off, the exponential, the row
    sum, the quotient — is the softmax along each row. -/
theorem softmax_block {a b : ℕ} (w : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩) :
    cur2 (divf (exp (subf w (broadcastTo ⟨2, ![a, b]⟩ (shapeCast ⟨2, ![a, 1]⟩ (multiReduction .maximumf [1] ⟨1, ![a]⟩ w 0xFF800000#32 hr (.inl rfl) rfl) hc) hb)))
        (broadcastTo ⟨2, ![a, b]⟩ (shapeCast ⟨2, ![a, 1]⟩ (multiReduction .add [1] ⟨1, ![a]⟩
          (exp (subf w (broadcastTo ⟨2, ![a, b]⟩ (shapeCast ⟨2, ![a, 1]⟩ (multiReduction .maximumf [1] ⟨1, ![a]⟩ w 0xFF800000#32 hr (.inl rfl) rfl) hc) hb)))
          0x00000000#32 hr (.inl rfl) rfl) hc) hb) : (⟨2, ![a, b]⟩ : Shape).Idx → EReal)
      = softmax (cur2 (w : (⟨2, ![a, b]⟩ : Shape).Idx → EReal)) := by
  funext p q
  have hmax : ∀ k : Fin b, broadcastTo ⟨2, ![a, b]⟩ (shapeCast ⟨2, ![a, 1]⟩ (multiReduction .maximumf [1] ⟨1, ![a]⟩ w 0xFF800000#32 hr (.inl rfl) rfl) hc) hb (ix2 p k)
      = rowMax (cur2 (w : (⟨2, ![a, b]⟩ : Shape).Idx → EReal)) p :=
    fun k => (broadcastTo_col_apply _ hc hb p k).trans (lane_max w hr p)
  generalize broadcastTo ⟨2, ![a, b]⟩ (shapeCast ⟨2, ![a, 1]⟩ (multiReduction .maximumf [1] ⟨1, ![a]⟩ w 0xFF800000#32 hr (.inl rfl) rfl) hc) hb = M at hmax ⊢
  have hE : ∀ k : Fin b, exp (subf w M) (ix2 p k) = Ideal.exp (cur2 (w : (⟨2, ![a, b]⟩ : Shape).Idx → EReal) p k - rowMax (cur2 (w : (⟨2, ![a, b]⟩ : Shape).Idx → EReal)) p) := fun k => by
    show Ideal.exp (w (ix2 p k) - M (ix2 p k)) = _
    rw [hmax k]; rfl
  have hS : broadcastTo ⟨2, ![a, b]⟩ (shapeCast ⟨2, ![a, 1]⟩ (multiReduction .add [1] ⟨1, ![a]⟩ (exp (subf w M)) 0x00000000#32 hr (.inl rfl) rfl) hc) hb (ix2 p q)
      = ∑ k : Fin b, Ideal.exp (cur2 (w : (⟨2, ![a, b]⟩ : Shape).Idx → EReal) p k - rowMax (cur2 (w : (⟨2, ![a, b]⟩ : Shape).Idx → EReal)) p) :=
    (broadcastTo_col_apply _ hc hb p q).trans ((lane_sum _ hr p).trans (Finset.sum_congr rfl fun k _ => hE k))
  show Ideal.div (exp (subf w M) (ix2 p q)) _ = _
  rw [hE q, hS]
  rfl

/-! ## The stages of the Z block, as matrices over the block's rows -/

theorem matmul_nodes_eq {φ₁ φ₂ : FTy} (lhs : FVec Ideal S64x8192 φ₁) (rhs : FVec Ideal S8192x512 φ₂) :
    cur2 (matmul dot_S64x8192_S8192x512_S64x512_1_0_0_1_n_n none lhs rhs (constant (F := Ideal) S64x512 .f32 0x00000000#32) : S64x512.Idx → EReal)
      = mm (cur2 (lhs : S64x8192.Idx → EReal)) (cur2 (rhs : S8192x512.Idx → EReal)) :=
  funext fun p => funext fun q => matmul_nodes_apply lhs rhs p q

theorem matmul_feat_eq {φ₁ φ₂ : FTy} (lhs : FVec Ideal S64x512 φ₁) (rhs : FVec Ideal S512x8192 φ₂) :
    cur2 (matmul dot_S64x512_S512x8192_S64x8192_1_0_0_1_n_n none lhs rhs (constant (F := Ideal) S64x8192 .f32 0x00000000#32) : S64x8192.Idx → EReal)
      = mm (cur2 (lhs : S64x512.Idx → EReal)) (cur2 (rhs : S512x8192.Idx → EReal)) :=
  funext fun p => funext fun q => matmul_feat_apply lhs rhs p q

/-- The K block: tanh of the block's rows of U against WaT, plus the bias row (a change of format
    before and after is the identity). -/
theorem Kmat_block (x0 : Vec Ideal S64x8192 .f32) (x1 : Vec Ideal S8192x512 .bf16) (b : Vec Ideal S1x512 .f32)
    (h1 : FTy.bits .bf16 < FTy.bits .f32) (h2 : S8192x512.ShapeCasts S8192x512) (h3 : S1x512.ShapeCasts S1x512)
    (h4 : S1x512.Broadcasts S64x512) :
    cur2 (truncf .bf16 (tanh (addf (matmul dot_S64x8192_S8192x512_S64x512_1_0_0_1_n_n none (k1_pay2 (F := Ideal) x0) (shapeCast S8192x512 x1 h2 : FVec Ideal S8192x512 .bf16) (constant (F := Ideal) S64x512 .f32 0x00000000#32))
        (broadcastTo S64x512 (shapeCast S1x512 b h3 : FVec Ideal S1x512 .f32) h4))) h1 : S64x512.Idx → EReal)
      = Kmat (cur2 (x0 : S64x8192.Idx → EReal)) (cur2 (x1 : S8192x512.Idx → EReal)) (cur2 (b : S1x512.Idx → EReal) 0) := by
  funext p d
  show Ideal.tanh (matmul dot_S64x8192_S8192x512_S64x512_1_0_0_1_n_n none (k1_pay2 (F := Ideal) x0) (shapeCast S8192x512 x1 h2 : FVec Ideal S8192x512 .bf16) (constant (F := Ideal) S64x512 .f32 0x00000000#32) (ix2 p d)
      + broadcastTo S64x512 (shapeCast S1x512 b h3 : FVec Ideal S1x512 .f32) h4 (ix2 p d)) = _
  rw [matmul_nodes_apply, shapeCast_self, shapeCast_self, broadcastTo_1b_ab_apply]
  rfl

/-- The A block: the block's rows of U, entry by entry against their weights. -/
theorem A2_block_of (x0 : Vec Ideal S64x8192 .f32) (Sv : FVec Ideal S64x8192 .f32) (h1 : FTy.bits .bf16 < FTy.bits .f32)
    (WaT : Fin 8192 → Fin 512 → EReal) (ba : Fin 512 → EReal) (H1T : Fin 512 → Fin 8192 → EReal)
    (h : cur2 (Sv : S64x8192.Idx → EReal) = softmax (mm (Kmat (cur2 (x0 : S64x8192.Idx → EReal)) WaT ba) H1T)) :
    cur2 (truncf .bf16 (mulf x0 Sv) h1 : S64x8192.Idx → EReal) = A2 (cur2 (x0 : S64x8192.Idx → EReal)) WaT ba H1T := by
  funext i j
  show x0 (ix2 i j) * cur2 (Sv : S64x8192.Idx → EReal) i j = _
  rw [h]; rfl

/-- The Z block, one long term: each stage read as a matrix over the block's 64 rows. -/
theorem pay3_eq (x0 : Vec Ideal S64x8192 .f32) (x1 : Vec Ideal S8192x512 .bf16) (b : Vec Ideal S1x512 .f32)
    (x2 : Vec Ideal S512x8192 .bf16) (x4 : Vec Ideal S8192x512 .bf16) :
    cur2 (k1_pay3 (F := Ideal) x0 x1 b x2 x4 : S64x512.Idx → EReal)
      = softmax (mm (A2 (cur2 (x0 : S64x8192.Idx → EReal)) (cur2 (x1 : S8192x512.Idx → EReal)) (cur2 (b : S1x512.Idx → EReal) 0)
          (cur2 (x2 : S512x8192.Idx → EReal))) (cur2 (x4 : S8192x512.Idx → EReal))) := by
  unfold k1_pay3
  refine (softmax_block _ _ _ _).trans (congrArg softmax ?_)
  refine (matmul_nodes_eq _ _).trans ?_
  refine congrArg₂ mm ?_ (congrArg cur2 (shapeCast_self _ _))
  refine A2_block_of x0 _ _ _ _ _ ?_
  refine (softmax_block _ _ _ _).trans (congrArg softmax ?_)
  refine (matmul_feat_eq _ _).trans ?_
  refine congrArg₂ mm ?_ (congrArg cur2 (shapeCast_self _ _))
  exact Kmat_block x0 x1 b _ _ _ _

/-! ## From the blocks to the arrays -/

theorem hz : (![0, 0] : Fin 2 → Nat) = fun _ => 0 := funext fun a => by fin_cases a <;> rfl

/-- The printed index maps, decided over the grid: U and the three results move by one block of 64
    rows per point; the four other inputs stay whole. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- A whole-array window's block is the array, at every point. -/
theorem iblk_v1 (c : Dev nD) (t : Fin cfg1.N) :
    (iblk1 (F := Ideal) V c 1 t : S8192x512.Idx → EReal) = (V c main_v1 : S8192x512.Idx → EReal) := by
  obtain ⟨e00, e01, e10, e11, e20, e21, e30, e31, e40, e41, -⟩ := idx_facts t
  funext y
  show V c main_v1 (((cfg1.win 1).blk t).view.emb y) = V c main_v1 y
  refine congrArg _ (funext fun ax => Fin.ext ?_)
  match ax with
  | ⟨0, _⟩ => show win1_1.index t (0 : Fin 2) * 8192 + 1 * (y 0).val = (y 0).val; omega
  | ⟨1, _⟩ => show win1_1.index t (1 : Fin 2) * 512 + 1 * (y 1).val = (y 1).val; omega

theorem iblk_v3 (c : Dev nD) (t : Fin cfg1.N) :
    (iblk1 (F := Ideal) V c 2 t : S512x8192.Idx → EReal) = (V c main_v3 : S512x8192.Idx → EReal) := by
  obtain ⟨e00, e01, e10, e11, e20, e21, e30, e31, e40, e41, -⟩ := idx_facts t
  funext y
  show V c main_v3 (((cfg1.win 2).blk t).view.emb y) = V c main_v3 y
  refine congrArg _ (funext fun ax => Fin.ext ?_)
  match ax with
  | ⟨0, _⟩ => show win1_2.index t (0 : Fin 2) * 512 + 1 * (y 0).val = (y 0).val; omega
  | ⟨1, _⟩ => show win1_2.index t (1 : Fin 2) * 8192 + 1 * (y 1).val = (y 1).val; omega

theorem iblk_v6 (c : Dev nD) (t : Fin cfg1.N) :
    (iblk1 (F := Ideal) V c 3 t : S1x512.Idx → EReal) = (V c main_v6 : S1x512.Idx → EReal) := by
  obtain ⟨e00, e01, e10, e11, e20, e21, e30, e31, e40, e41, -⟩ := idx_facts t
  funext y
  show V c main_v6 (((cfg1.win 3).blk t).view.emb y) = V c main_v6 y
  refine congrArg _ (funext fun ax => Fin.ext ?_)
  match ax with
  | ⟨0, _⟩ => show win1_3.index t (0 : Fin 2) * 1 + 1 * (y 0).val = (y 0).val; omega
  | ⟨1, _⟩ => show win1_3.index t (1 : Fin 2) * 512 + 1 * (y 1).val = (y 1).val; omega

theorem iblk_v7 (c : Dev nD) (t : Fin cfg1.N) :
    (iblk1 (F := Ideal) V c 4 t : S8192x512.Idx → EReal) = (V c main_v7 : S8192x512.Idx → EReal) := by
  obtain ⟨e00, e01, e10, e11, e20, e21, e30, e31, e40, e41, -⟩ := idx_facts t
  funext y
  show V c main_v7 (((cfg1.win 4).blk t).view.emb y) = V c main_v7 y
  refine congrArg _ (funext fun ax => Fin.ext ?_)
  match ax with
  | ⟨0, _⟩ => show win1_4.index t (0 : Fin 2) * 8192 + 1 * (y 0).val = (y 0).val; omega
  | ⟨1, _⟩ => show win1_4.index t (1 : Fin 2) * 512 + 1 * (y 1).val = (y 1).val; omega

/-- Row p of U's block at point t is row 64 t + p of U. -/
theorem iblk_U_row (c : Dev nD) (t : Fin cfg1.N) (p : Fin 64) (r : Fin 8192) (hr : r.val = t.val * 64 + p.val) (l : Fin 8192) :
    iblk1 (F := Ideal) V c 0 t (ix2 p l) = (V c main_arg0 : S8192x8192.Idx → EReal) (ix2 r l) := by
  obtain ⟨e00, e01, -⟩ := idx_facts t
  show V c main_arg0 (((cfg1.win 0).blk t).view.emb (ix2 p l)) = V c main_arg0 (ix2 r l)
  refine congrArg _ (funext fun ax => Fin.ext ?_)
  match ax with
  | ⟨0, _⟩ => show win1_0.index t (0 : Fin 2) * 64 + 1 * p.val = r.val; omega
  | ⟨1, _⟩ => show win1_0.index t (1 : Fin 2) * 8192 + 1 * l.val = l.val; omega

/-- The Z block over a block of rows of U is those rows of Z over the whole of U. -/
theorem block_Z (U : S8192x8192.Idx → EReal) (X1 : S8192x512.Idx → EReal) (B : S1x512.Idx → EReal)
    (X2 : S512x8192.Idx → EReal) (X4 : S8192x512.Idx → EReal)
    (x0 : Vec Ideal S64x8192 .f32) (x1 : Vec Ideal S8192x512 .bf16) (b : Vec Ideal S1x512 .f32)
    (x2 : Vec Ideal S512x8192 .bf16) (x4 : Vec Ideal S8192x512 .bf16) (p : Fin 64) (r : Fin 8192) (q : Fin 512)
    (h0 : ∀ l : Fin 8192, x0 (ix2 p l) = U (ix2 r l)) (h1 : x1 = X1) (hb : b = B) (h2 : x2 = X2) (h4 : x4 = X4) :
    k1_pay3 (F := Ideal) x0 x1 b x2 x4 (ix2 p q)
      = softmax (mm (A2 (cur2 U) (cur2 X1) (cur2 B 0) (cur2 X2)) (cur2 X4)) r q := by
  subst h1 hb h2 h4
  refine (congrFun (congrFun (pay3_eq x0 x1 b x2 x4) p) q).trans ?_
  exact congrFun (softmax_row (mm_row _ (A2_row _ _ _ (funext h0)))) q

/-- What point t writes back of the first result is block t of Z. -/
theorem flushed5_eq (c : Dev nD) (t : Fin cfg1.N) :
    (dat1 (F := Ideal) V c).flushed 5 t = ((cfg1.win 5).blk t).view.read (Elt Ideal) (unc2 (Zof V c)) := by
  show (cfg1.win 5).cut (grid1.coords t) ((dat1 (F := Ideal) V c).after 5 t) = _
  rw [after1_5]
  unfold out1_5
  rw [View.canon_unit_zero hz]
  simp only [View.ld_unit_zero (S := S64x8192) hz, View.ld_unit_zero (S := S8192x512) hz, View.ld_unit_zero (S := S1x512) hz, View.ld_unit_zero (S := S512x8192) hz]
  funext j
  obtain ⟨p, q, rfl⟩ : ∃ (p : Fin 64) (q : Fin 512), j = ix2 p q := ⟨j 0, j 1, eq_ix2 (n0 := 64) (n1 := 512) j⟩
  have ht : t.val < 128 := lt_of_lt_of_eq t.isLt N_1
  obtain ⟨-, -, -, -, -, -, -, -, -, -, e50, e51, -⟩ := idx_facts t
  have hi : ((cfg1.win 5).blk t).view.emb (ix2 p q) = ix2 (⟨t.val * 64 + p.val, by omega⟩ : Fin 8192) q :=
    funext fun ax => Fin.ext (by
      match ax with
      | ⟨0, _⟩ => show win1_5.index t (0 : Fin 2) * 64 + 1 * p.val = t.val * 64 + p.val; omega
      | ⟨1, _⟩ => show win1_5.index t (1 : Fin 2) * 512 + 1 * q.val = q.val; omega)
  show k1_pay3 (F := Ideal) (iblk1 V c 0 t) (iblk1 V c 1 t) (iblk1 V c 3 t) (iblk1 V c 2 t) (iblk1 V c 4 t) (ix2 p q)
    = unc2 (Zof V c) (((cfg1.win 5).blk t).view.emb (ix2 p q))
  rw [hi, unc2_ix2]
  exact block_Z (V c main_arg0) (V c main_v1) (V c main_v6) (V c main_v3) (V c main_v7) _ _ _ _ _ p _ q
    (iblk_U_row V c t p _ rfl) (iblk_v1 V c t) (iblk_v6 V c t) (iblk_v3 V c t) (iblk_v7 V c t)

/-- An index of the array is in point t's block iff each coordinate is in the block's range on its axis. -/
theorem mem_blk5 (t : Fin cfg1.N) (i : S8192x512.Idx) :
    i ∈ ((cfg1.win 5).blk t).view.set ↔ ∀ a : Fin 2, win1_5.index t a * S64x512.size a ≤ (i a).val ∧ (i a).val < win1_5.index t a * S64x512.size a + S64x512.size a := by
  show i ∈ ((View.whole main_v8_0).slice (win1_5.rect t)).set ↔ _
  rw [View.set_slice_whole, Rect.mem_set_unit]
  exact Iff.rfl

/-- Every row r of the array is in the block of point r / 64. -/
theorem cover5 (i : S8192x512.Idx) :
    ∃ t : Fin cfg1.N, (cfg1.win 5).flush t = true ∧ i ∈ ((cfg1.win 5).blk t).view.set := by
  have hi0 : (i 0).val < 8192 := (i 0).isLt
  have hi1 : (i 1).val < 512 := (i 1).isLt
  have hN : cfg1.N = 128 := N_1
  obtain ⟨t, ht⟩ : ∃ t : Fin cfg1.N, t.val = (i 0).val / 64 := ⟨⟨(i 0).val / 64, by rw [hN]; omega⟩, rfl⟩
  obtain ⟨-, -, -, -, -, -, -, -, -, -, e50, e51, e60, e61, e70, e71⟩ := idx_facts t
  refine ⟨t, flush1_5 t, ?_⟩
  rw [mem_blk5]
  intro a
  match a with
  | ⟨0, _⟩ => show win1_5.index t (0 : Fin 2) * 64 ≤ (i 0).val ∧ (i 0).val < win1_5.index t (0 : Fin 2) * 64 + 64; omega
  | ⟨1, _⟩ => show win1_5.index t (1 : Fin 2) * 512 ≤ (i 1).val ∧ (i 1).val < win1_5.index t (1 : Fin 2) * 512 + 512; omega

/-- What point t writes back of the second result is block t of Z: the change of format is the
    identity on extended reals. -/
theorem flushed6_eq (c : Dev nD) (t : Fin cfg1.N) :
    (dat1 (F := Ideal) V c).flushed 6 t = ((cfg1.win 6).blk t).view.read (Elt Ideal) (unc2 (Zof V c)) := by
  show (cfg1.win 6).cut (grid1.coords t) ((dat1 (F := Ideal) V c).after 6 t) = _
  rw [after1_6]
  unfold out1_6
  rw [View.canon_unit_zero hz]
  simp only [View.ld_unit_zero (S := S64x8192) hz, View.ld_unit_zero (S := S8192x512) hz, View.ld_unit_zero (S := S1x512) hz, View.ld_unit_zero (S := S512x8192) hz]
  funext j
  obtain ⟨p, q, rfl⟩ : ∃ (p : Fin 64) (q : Fin 512), j = ix2 p q := ⟨j 0, j 1, eq_ix2 (n0 := 64) (n1 := 512) j⟩
  have ht : t.val < 128 := lt_of_lt_of_eq t.isLt N_1
  obtain ⟨-, -, -, -, -, -, -, -, -, -, -, -, e60, e61, -⟩ := idx_facts t
  have hi : ((cfg1.win 6).blk t).view.emb (ix2 p q) = ix2 (⟨t.val * 64 + p.val, by omega⟩ : Fin 8192) q :=
    funext fun ax => Fin.ext (by
      match ax with
      | ⟨0, _⟩ => show win1_6.index t (0 : Fin 2) * 64 + 1 * p.val = t.val * 64 + p.val; omega
      | ⟨1, _⟩ => show win1_6.index t (1 : Fin 2) * 512 + 1 * q.val = q.val; omega)
  show k1_pay3 (F := Ideal) (iblk1 V c 0 t) (iblk1 V c 1 t) (iblk1 V c 3 t) (iblk1 V c 2 t) (iblk1 V c 4 t) (ix2 p q)
    = unc2 (Zof V c) (((cfg1.win 6).blk t).view.emb (ix2 p q))
  rw [hi, unc2_ix2]
  exact block_Z (V c main_arg0) (V c main_v1) (V c main_v6) (V c main_v3) (V c main_v7) _ _ _ _ _ p _ q
    (iblk_U_row V c t p _ rfl) (iblk_v1 V c t) (iblk_v6 V c t) (iblk_v3 V c t) (iblk_v7 V c t)

/-- An index of the array is in point t's block iff each coordinate is in the block's range on its axis. -/
theorem mem_blk6 (t : Fin cfg1.N) (i : S8192x512.Idx) :
    i ∈ ((cfg1.win 6).blk t).view.set ↔ ∀ a : Fin 2, win1_6.index t a * S64x512.size a ≤ (i a).val ∧ (i a).val < win1_6.index t a * S64x512.size a + S64x512.size a := by
  show i ∈ ((View.whole main_v8_1).slice (win1_6.rect t)).set ↔ _
  rw [View.set_slice_whole, Rect.mem_set_unit]
  exact Iff.rfl

/-- Every row r of the array is in the block of point r / 64. -/
theorem cover6 (i : S8192x512.Idx) :
    ∃ t : Fin cfg1.N, (cfg1.win 6).flush t = true ∧ i ∈ ((cfg1.win 6).blk t).view.set := by
  have hi0 : (i 0).val < 8192 := (i 0).isLt
  have hi1 : (i 1).val < 512 := (i 1).isLt
  have hN : cfg1.N = 128 := N_1
  obtain ⟨t, ht⟩ : ∃ t : Fin cfg1.N, t.val = (i 0).val / 64 := ⟨⟨(i 0).val / 64, by rw [hN]; omega⟩, rfl⟩
  obtain ⟨-, -, -, -, -, -, -, -, -, -, e50, e51, e60, e61, e70, e71⟩ := idx_facts t
  refine ⟨t, flush1_6 t, ?_⟩
  rw [mem_blk6]
  intro a
  match a with
  | ⟨0, _⟩ => show win1_6.index t (0 : Fin 2) * 64 ≤ (i 0).val ∧ (i 0).val < win1_6.index t (0 : Fin 2) * 64 + 64; omega
  | ⟨1, _⟩ => show win1_6.index t (1 : Fin 2) * 512 ≤ (i 1).val ∧ (i 1).val < win1_6.index t (1 : Fin 2) * 512 + 512; omega

/-- What point t writes back of the third result is block t of U. -/
theorem flushed7_eq (c : Dev nD) (t : Fin cfg1.N) :
    (dat1 (F := Ideal) V c).flushed 7 t
      = ((cfg1.win 7).blk t).view.read (Elt Ideal) (fun i => (V c main_arg0 : S8192x8192.Idx → EReal) i) := by
  show (cfg1.win 7).cut (grid1.coords t) ((dat1 (F := Ideal) V c).after 7 t) = _
  rw [after1_7]
  unfold out1_7
  rw [View.canon_unit_zero hz]
  simp only [View.ld_unit_zero (S := S64x8192) hz]
  obtain ⟨e00, e01, -, -, -, -, -, -, -, -, -, -, -, -, e70, e71⟩ := idx_facts t
  funext j
  show V c main_arg0 (((cfg1.win 0).blk t).view.emb j) = V c main_arg0 (((cfg1.win 7).blk t).view.emb j)
  refine congrArg _ (funext fun ax => Fin.ext ?_)
  match ax with
  | ⟨0, _⟩ => show win1_0.index t (0 : Fin 2) * 64 + 1 * (j 0).val = win1_7.index t (0 : Fin 2) * 64 + 1 * (j 0).val; omega
  | ⟨1, _⟩ => show win1_0.index t (1 : Fin 2) * 8192 + 1 * (j 1).val = win1_7.index t (1 : Fin 2) * 8192 + 1 * (j 1).val; omega

/-- An index of the array is in point t's block iff each coordinate is in the block's range on its axis. -/
theorem mem_blk7 (t : Fin cfg1.N) (i : S8192x8192.Idx) :
    i ∈ ((cfg1.win 7).blk t).view.set ↔ ∀ a : Fin 2, win1_7.index t a * S64x8192.size a ≤ (i a).val ∧ (i a).val < win1_7.index t a * S64x8192.size a + S64x8192.size a := by
  show i ∈ ((View.whole main_v8_2).slice (win1_7.rect t)).set ↔ _
  rw [View.set_slice_whole, Rect.mem_set_unit]
  exact Iff.rfl

/-- Every row r of the array is in the block of point r / 64. -/
theorem cover7 (i : S8192x8192.Idx) :
    ∃ t : Fin cfg1.N, (cfg1.win 7).flush t = true ∧ i ∈ ((cfg1.win 7).blk t).view.set := by
  have hi0 : (i 0).val < 8192 := (i 0).isLt
  have hi1 : (i 1).val < 8192 := (i 1).isLt
  have hN : cfg1.N = 128 := N_1
  obtain ⟨t, ht⟩ : ∃ t : Fin cfg1.N, t.val = (i 0).val / 64 := ⟨⟨(i 0).val / 64, by rw [hN]; omega⟩, rfl⟩
  obtain ⟨-, -, -, -, -, -, -, -, -, -, e50, e51, e60, e61, e70, e71⟩ := idx_facts t
  refine ⟨t, flush1_7 t, ?_⟩
  rw [mem_blk7]
  intro a
  match a with
  | ⟨0, _⟩ => show win1_7.index t (0 : Fin 2) * 64 ≤ (i 0).val ∧ (i 0).val < win1_7.index t (0 : Fin 2) * 64 + 64; omega
  | ⟨1, _⟩ => show win1_7.index t (1 : Fin 2) * 8192 ≤ (i 1).val ∧ (i 1).val < win1_7.index t (1 : Fin 2) * 8192 + 8192; omega

end Attention

open Attention

/-- The second call's first result array (Z, in single precision). -/
theorem final1_5 (c : Dev nD) : (dat1 (F := Ideal) V c).arrAt 5 cfg1.N = unc2 (Zof V c) :=
  (dat1 (F := Ideal) V c).arrAt_eq_of_cover 5 (unc2 (Zof V c)) (fun t _ => flushed5_eq V c t) cover5

/-- Its second result array: the same values (a change of format is the identity on extended reals). -/
theorem final1_6 (c : Dev nD) : (dat1 (F := Ideal) V c).arrAt 6 cfg1.N = unc2 (Zof V c) :=
  (dat1 (F := Ideal) V c).arrAt_eq_of_cover 6 (unc2 (Zof V c)) (fun t _ => flushed6_eq V c t) cover6

/-- Its third result array: U itself. -/
theorem final1_7 (c : Dev nD) :
    (dat1 (F := Ideal) V c).arrAt 7 cfg1.N = fun i => (V c main_arg0 : S8192x8192.Idx → EReal) i :=
  (dat1 (F := Ideal) V c).arrAt_eq_of_cover 7 (fun i => (V c main_arg0 : S8192x8192.Idx → EReal) i) (fun t _ => flushed7_eq V c t) cover7

end Cert.KernelIdeal.Hand

end
-- ==== Proof.KVal2.lean ====
import proofs.«424005_j21242908246464_3_alg».proof.Proof.Gen.KernelIdeal.Frame
import proofs.«424005_j21242908246464_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen Cert.Spec

variable (V : (c : Dev nD) → (b : Ref sig .tc) → Buf (Elt Ideal) ((c : Thread nD τ).loc b))

namespace Decoder

/-! ### The two-branch logistic function, entry by entry -/

/-- The two-branch logistic function, one entry of a vector at a time. -/
theorem sig_apply (L : FVec Ideal S128x8192 .f32) (j : S128x8192.Idx) :
    select (cmpf .oge L (broadcast S128x8192 (Scalar.ofBits (F := Ideal) .f32 0x00000000#32)))
      (divf (broadcast S128x8192 (Scalar.ofBits (F := Ideal) .f32 0x3F800000#32))
        (addf (broadcast S128x8192 (Scalar.ofBits (F := Ideal) .f32 0x3F800000#32))
          (exp (subf (broadcast S128x8192 (Scalar.ofBits (F := Ideal) .f32 0x00000000#32)) (absf L)))))
      (divf (exp (subf (broadcast S128x8192 (Scalar.ofBits (F := Ideal) .f32 0x00000000#32)) (absf L)))
        (addf (broadcast S128x8192 (Scalar.ofBits (F := Ideal) .f32 0x3F800000#32))
          (exp (subf (broadcast S128x8192 (Scalar.ofBits (F := Ideal) .f32 0x00000000#32)) (absf L))))) j
      = sigK (L j) := by
  show Scalar.select (Ideal.cmp .oge (L j) (Ideal.ofBits .f32 0x00000000#32))
      (Ideal.div (Ideal.ofBits .f32 0x3F800000#32) (Ideal.ofBits .f32 0x3F800000#32 + Ideal.exp (Ideal.ofBits .f32 0x00000000#32 - max (L j) (-(L j)))))
      (Ideal.div (Ideal.exp (Ideal.ofBits .f32 0x00000000#32 - max (L j) (-(L j)))) (Ideal.ofBits .f32 0x3F800000#32 + Ideal.exp (Ideal.ofBits .f32 0x00000000#32 - max (L j) (-(L j))))) = _
  rw [ofBits_one, ofBits_zero]
  unfold sigK Ideal.cmp
  by_cases h : 0 ≤ L j
  · rw [if_pos h]; simp [Scalar.select, h]
  · rw [if_neg h]; simp [Scalar.select, h]

/-! ### The two products of the kernel body, read at an entry -/

theorem lhs_inner_0 (i : S128x512.Idx) (q : dot_S128x8192_S8192x512_S128x512_1_0_0_1_n_n.contr.Idx) :
    (dot_S128x8192_S8192x512_S128x512_1_0_0_1_n_n.lhsIdx i q 0).val = (i 0).val := by
  unfold DotDims.lhsIdx
  rw [dif_neg (show ¬(0 : Fin S128x8192.rank) ∈ dot_S128x8192_S8192x512_S128x512_1_0_0_1_n_n.lhsBatch by decide), dif_pos (show (0 : Fin S128x8192.rank) ∈ dot_S128x8192_S8192x512_S128x512_1_0_0_1_n_n.lhsNonContracting by decide)]
  rfl
theorem lhs_inner_1 (i : S128x512.Idx) (q : dot_S128x8192_S8192x512_S128x512_1_0_0_1_n_n.contr.Idx) :
    (dot_S128x8192_S8192x512_S128x512_1_0_0_1_n_n.lhsIdx i q 1).val = (q ⟨0, by decide⟩).val :=
  dot_S128x8192_S8192x512_S128x512_1_0_0_1_n_n.lhsIdx_val_of_single rfl i q
theorem rhs_inner_0 (i : S128x512.Idx) (q : dot_S128x8192_S8192x512_S128x512_1_0_0_1_n_n.contr.Idx) :
    (dot_S128x8192_S8192x512_S128x512_1_0_0_1_n_n.rhsIdx i q 0).val = (q ⟨0, by decide⟩).val :=
  dot_S128x8192_S8192x512_S128x512_1_0_0_1_n_n.rhsIdx_val_of_single rfl i q
theorem rhs_inner_1 (i : S128x512.Idx) (q : dot_S128x8192_S8192x512_S128x512_1_0_0_1_n_n.contr.Idx) :
    (dot_S128x8192_S8192x512_S128x512_1_0_0_1_n_n.rhsIdx i q 1).val = (i 1).val := by
  unfold DotDims.rhsIdx
  rw [dif_neg (show ¬(1 : Fin S8192x512.rank) ∈ dot_S128x8192_S8192x512_S128x512_1_0_0_1_n_n.rhsBatch by decide), dif_pos (show (1 : Fin S8192x512.rank) ∈ dot_S128x8192_S8192x512_S128x512_1_0_0_1_n_n.rhsNonContracting by decide)]
  rfl

/-- The inner product U · Z of a block of 128 rows: entry (p, d) is the sum over the 8192 columns. -/
theorem inner_apply (a : FVec Ideal S128x8192 .bf16) (b : FVec Ideal S8192x512 .bf16) (p : Fin 128) (d : Fin 512) :
    matmul dot_S128x8192_S8192x512_S128x512_1_0_0_1_n_n none a b (constant (F := Ideal) S128x512 .f32 0x00000000#32) (ix2 p d)
      = ∑ k : Fin 8192, a (ix2 p k) * b (ix2 k d) := by
  refine (Ideal.matmul_constant_zero_apply dot_S128x8192_S8192x512_S128x512_1_0_0_1_n_n none a b (ix2 p d)).trans ?_
  rw [← Equiv.sum_comp (contrEquiv1 dot_S128x8192_S8192x512_S128x512_1_0_0_1_n_n 8192 rfl rfl).symm]
  refine Finset.sum_congr rfl fun k _ => ?_
  have hk := contrEquiv1_symm_val dot_S128x8192_S8192x512_S128x512_1_0_0_1_n_n 8192 rfl rfl k
  have el : dot_S128x8192_S8192x512_S128x512_1_0_0_1_n_n.lhsIdx (ix2 p d) ((contrEquiv1 dot_S128x8192_S8192x512_S128x512_1_0_0_1_n_n 8192 rfl rfl).symm k) = ix2 p k := funext fun a => Fin.ext (by
    match a with
    | ⟨0, _⟩ => exact lhs_inner_0 _ _
    | ⟨1, _⟩ => exact (lhs_inner_1 _ _).trans hk)
  have er : dot_S128x8192_S8192x512_S128x512_1_0_0_1_n_n.rhsIdx (ix2 p d) ((contrEquiv1 dot_S128x8192_S8192x512_S128x512_1_0_0_1_n_n 8192 rfl rfl).symm k) = ix2 k d := funext fun a => Fin.ext (by
    match a with
    | ⟨0, _⟩ => exact (rhs_inner_0 _ _).trans hk
    | ⟨1, _⟩ => exact rhs_inner_1 _ _)
  rw [el, er]

theorem lhs_outer_0 (i : S128x8192.Idx) (q : dot_S128x512_S512x8192_S128x8192_1_0_0_1_n_n.contr.Idx) :
    (dot_S128x512_S512x8192_S128x8192_1_0_0_1_n_n.lhsIdx i q 0).val = (i 0).val := by
  unfold DotDims.lhsIdx
  rw [dif_neg (show ¬(0 : Fin S128x512.rank) ∈ dot_S128x512_S512x8192_S128x8192_1_0_0_1_n_n.lhsBatch by decide), dif_pos (show (0 : Fin S128x512.rank) ∈ dot_S128x512_S512x8192_S128x8192_1_0_0_1_n_n.lhsNonContracting by decide)]
  rfl
theorem lhs_outer_1 (i : S128x8192.Idx) (q : dot_S128x512_S512x8192_S128x8192_1_0_0_1_n_n.contr.Idx) :
    (dot_S128x512_S512x8192_S128x8192_1_0_0_1_n_n.lhsIdx i q 1).val = (q ⟨0, by decide⟩).val :=
  dot_S128x512_S512x8192_S128x8192_1_0_0_1_n_n.lhsIdx_val_of_single rfl i q
theorem rhs_outer_0 (i : S128x8192.Idx) (q : dot_S128x512_S512x8192_S128x8192_1_0_0_1_n_n.contr.Idx) :
    (dot_S128x512_S512x8192_S128x8192_1_0_0_1_n_n.rhsIdx i q 0).val = (q ⟨0, by decide⟩).val :=
  dot_S128x512_S512x8192_S128x8192_1_0_0_1_n_n.rhsIdx_val_of_single rfl i q
theorem rhs_outer_1 (i : S128x8192.Idx) (q : dot_S128x512_S512x8192_S128x8192_1_0_0_1_n_n.contr.Idx) :
    (dot_S128x512_S512x8192_S128x8192_1_0_0_1_n_n.rhsIdx i q 1).val = (i 1).val := by
  unfold DotDims.rhsIdx
  rw [dif_neg (show ¬(1 : Fin S512x8192.rank) ∈ dot_S128x512_S512x8192_S128x8192_1_0_0_1_n_n.rhsBatch by decide), dif_pos (show (1 : Fin S512x8192.rank) ∈ dot_S128x512_S512x8192_S128x8192_1_0_0_1_n_n.rhsNonContracting by decide)]
  rfl

/-- The outer product (U · Z) · W₁ of a block of 128 rows: entry (p, q) is the sum over the 512 columns. -/
theorem outer_apply (a : FVec Ideal S128x512 .bf16) (b : FVec Ideal S512x8192 .bf16) (p : Fin 128) (q : Fin 8192) :
    matmul dot_S128x512_S512x8192_S128x8192_1_0_0_1_n_n none a b (constant (F := Ideal) S128x8192 .f32 0x00000000#32) (ix2 p q)
      = ∑ d : Fin 512, a (ix2 p d) * b (ix2 d q) := by
  refine (Ideal.matmul_constant_zero_apply dot_S128x512_S512x8192_S128x8192_1_0_0_1_n_n none a b (ix2 p q)).trans ?_
  rw [← Equiv.sum_comp (contrEquiv1 dot_S128x512_S512x8192_S128x8192_1_0_0_1_n_n 512 rfl rfl).symm]
  refine Finset.sum_congr rfl fun k _ => ?_
  have hk := contrEquiv1_symm_val dot_S128x512_S512x8192_S128x8192_1_0_0_1_n_n 512 rfl rfl k
  have el : dot_S128x512_S512x8192_S128x8192_1_0_0_1_n_n.lhsIdx (ix2 p q) ((contrEquiv1 dot_S128x512_S512x8192_S128x8192_1_0_0_1_n_n 512 rfl rfl).symm k) = ix2 p k := funext fun a => Fin.ext (by
    match a with
    | ⟨0, _⟩ => exact lhs_outer_0 _ _
    | ⟨1, _⟩ => exact (lhs_outer_1 _ _).trans hk)
  have er : dot_S128x512_S512x8192_S128x8192_1_0_0_1_n_n.rhsIdx (ix2 p q) ((contrEquiv1 dot_S128x512_S512x8192_S128x8192_1_0_0_1_n_n 512 rfl rfl).symm k) = ix2 k q := funext fun a => Fin.ext (by
    match a with
    | ⟨0, _⟩ => exact (rhs_outer_0 _ _).trans hk
    | ⟨1, _⟩ => exact rhs_outer_1 _ _)
  rw [el, er]

/-- The body's payload at an entry: the two-branch logistic function of the row-block's triple product. -/
theorem pay_apply (x0 : Vec Ideal S128x8192 .bf16) (x1 : Vec Ideal S8192x512 .bf16) (x2 : Vec Ideal S512x8192 .bf16)
    (p : Fin 128) (q : Fin 8192) :
    k2_pay1 (F := Ideal) x0 x1 x2 (ix2 p q)
      = sigK (∑ d : Fin 512, (∑ k : Fin 8192, x0 (ix2 p k) * x1 (ix2 k d)) * x2 (ix2 d q)) := by
  unfold k2_pay1
  refine (sig_apply _ (ix2 p q)).trans ?_
  refine congrArg sigK ?_
  refine (outer_apply _ _ p q).trans ?_
  refine Finset.sum_congr rfl fun d _ => ?_
  rw [shapeCast_self, shapeCast_self, shapeCast_self]
  refine congrArg (· * x2 (ix2 d q)) ?_
  exact inner_apply x0 x1 p d

/-! ### From the row-blocks to the array -/

theorem hz : (![0, 0] : Fin 2 → Nat) = fun _ => 0 := funext fun a => by fin_cases a <;> rfl

/-- The index maps over the 64 grid points: the block of U and the result's block move together down the rows,
    Z and W₁ are staged whole, and the result's row-block index is the point's number. -/
theorem idx_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) ≤ 63
    ∧ win2_3.index t (1 : Fin 2) = 0 :=
  (by decide +kernel : ∀ t : Fin grid2.N, _)

/-- Every one of the 64 row-blocks is some point's. -/
theorem idx_onto : ∀ (r : Fin 64), ∃ t : Fin cfg2.N, win2_3.index t = ![r.val, 0] :=
  (by decide +kernel : ∀ (r : Fin 64), ∃ t : Fin grid2.N, win2_3.index t = ![r.val, 0])

/-- What point t writes back is row-block t of the two-branch logistic function of (U · Z) · W₁. -/
theorem flushed_eq (c : Dev nD) (t : Fin cfg2.N) :
    (dat2 (F := Ideal) V c).flushed 3 t = ((cfg2.win 3).blk t).view.read (Elt Ideal)
      (unc2 (fun i j => sigK (mm (mm (cur2 (V c main_v8_2 : S8192x8192.Idx → EReal)) (cur2 (V c main_v8_1 : S8192x512.Idx → EReal)))
          (cur2 (V c main_v5 : S512x8192.Idx → EReal)) i j))) := by
  show (cfg2.win 3).cut (grid2.coords t) ((dat2 (F := Ideal) V c).after 3 t) = _
  rw [after2_3]
  unfold out2_3
  rw [View.canon_unit_zero hz]
  simp only [View.ld_unit_zero (S := S128x8192) hz, View.ld_unit_zero (S := S8192x512) hz, View.ld_unit_zero (S := S512x8192) hz]
  obtain ⟨e0, e1, e2, e3, e4, e5, e6, e7⟩ := idx_facts t
  funext j
  obtain ⟨p, q, rfl⟩ : ∃ (p : Fin 128) (q : Fin 8192), j = ix2 p q := ⟨j 0, j 1, eq_ix2 j⟩
  show k2_pay1 (F := Ideal) (iblk2 V c 0 t) (iblk2 V c 1 t) (iblk2 V c 2 t) (ix2 p q) = _
  refine (pay_apply _ _ _ p q).trans ?_
  have hp : p.val < 128 := p.isLt
  have hr : win2_3.index t (0 : Fin 2) * 128 + 1 * p.val < 8192 := by omega
  have hemb : ((cfg2.win 3).blk t).view.emb (ix2 p q)
      = ix2 (⟨win2_3.index t (0 : Fin 2) * 128 + 1 * p.val, hr⟩ : Fin 8192) q := by
    funext a; apply Fin.ext
    match a with
    | ⟨0, _⟩ => rfl
    | ⟨1, _⟩ => show win2_3.index t (1 : Fin 2) * 8192 + 1 * q.val = q.val; omega
  show _ = unc2 (fun i j => sigK (mm (mm (cur2 (V c main_v8_2 : S8192x8192.Idx → EReal)) (cur2 (V c main_v8_1 : S8192x512.Idx → EReal)))
      (cur2 (V c main_v5 : S512x8192.Idx → EReal)) i j)) (((cfg2.win 3).blk t).view.emb (ix2 p q))
  refine Eq.trans ?_ (congrArg (unc2 _) hemb).symm
  refine congrArg sigK (Finset.sum_congr rfl fun d _ => ?_)
  refine congrArg₂ (· * ·) (Finset.sum_congr rfl fun k _ => congrArg₂ (· * ·) ?_ ?_) ?_
  · show V c main_v8_2 (((cfg2.win 0).blk t).view.emb (ix2 p k)) = V c main_v8_2 (ix2 (⟨win2_3.index t (0 : Fin 2) * 128 + 1 * p.val, hr⟩ : Fin 8192) k)
    refine congrArg (V c main_v8_2) ?_
    funext a; apply Fin.ext
    match a with
    | ⟨0, _⟩ => show win2_0.index t (0 : Fin 2) * 128 + 1 * p.val = win2_3.index t (0 : Fin 2) * 128 + 1 * p.val; omega
    | ⟨1, _⟩ => show win2_0.index t (1 : Fin 2) * 8192 + 1 * k.val = k.val; omega
  · show V c main_v8_1 (((cfg2.win 1).blk t).view.emb (ix2 k d)) = V c main_v8_1 (ix2 k d)
    refine congrArg (V c main_v8_1) ?_
    funext a; apply Fin.ext
    match a with
    | ⟨0, _⟩ => show win2_1.index t (0 : Fin 2) * 8192 + 1 * k.val = k.val; omega
    | ⟨1, _⟩ => show win2_1.index t (1 : Fin 2) * 512 + 1 * d.val = d.val; omega
  · show V c main_v5 (((cfg2.win 2).blk t).view.emb (ix2 d q)) = V c main_v5 (ix2 d q)
    refine congrArg (V c main_v5) ?_
    funext a; apply Fin.ext
    match a with
    | ⟨0, _⟩ => show win2_2.index t (0 : Fin 2) * 512 + 1 * d.val = d.val; omega
    | ⟨1, _⟩ => show win2_2.index t (1 : Fin 2) * 8192 + 1 * q.val = q.val; omega

/-- An index of the result array is in point t's row-block iff each coordinate is in the block's range on its axis. -/
theorem mem_blk (t : Fin cfg2.N) (i : S8192x8192.Idx) :
    i ∈ ((cfg2.win 3).blk t).view.set ↔ ∀ a : Fin 2, win2_3.index t a * S128x8192.size a ≤ (i a).val ∧ (i a).val < win2_3.index t a * S128x8192.size a + S128x8192.size a := by
  show i ∈ ((View.whole main_v9).slice (win2_3.rect t)).set ↔ _
  rw [View.set_slice_whole, Rect.mem_set_unit]
  exact Iff.rfl

/-- The 64 row-blocks of 128 rows cover the 8192 rows: row r lies in block r / 128. -/
theorem covered (i : S8192x8192.Idx) :
    ∃ t : Fin cfg2.N, (cfg2.win 3).flush t = true ∧ i ∈ ((cfg2.win 3).blk t).view.set := by
  have hi0 : (i 0).val < 8192 := (i 0).isLt
  have hi1 : (i 1).val < 8192 := (i 1).isLt
  obtain ⟨t, ht⟩ := idx_onto ⟨(i 0).val / 128, by omega⟩
  have q0 : win2_3.index t (0 : Fin 2) = (i 0).val / 128 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 128 ≤ (i 0).val ∧ (i 0).val < win2_3.index t (0 : Fin 2) * 128 + 128; omega
  | ⟨1, _⟩ => show win2_3.index t (1 : Fin 2) * 8192 ≤ (i 1).val ∧ (i 1).val < win2_3.index t (1 : Fin 2) * 8192 + 8192; omega

end Decoder

open Decoder

/-- The third call leaves in its result array the two-branch logistic function of (U · Z) · W₁,
    U, Z, W₁ the arrays its three input windows stage. -/
theorem final2_3 (c : Dev nD) :
    (dat2 (F := Ideal) V c).arrAt 3 cfg2.N
      = unc2 (fun i j => sigK (mm (mm (cur2 (V c main_v8_2 : S8192x8192.Idx → EReal)) (cur2 (V c main_v8_1 : S8192x512.Idx → EReal)))
          (cur2 (V c main_v5 : S512x8192.Idx → EReal)) i j)) :=
  (dat2 (F := Ideal) V c).arrAt_eq_of_cover 3 _ (fun t _ => flushed_eq V c t) covered

end Cert.KernelIdeal.Hand

end
-- ==== Proof.KValue.lean ====
import proofs.«424005_j21242908246464_3_alg».proof.Proof.Gen.KernelIdeal.Frame
import proofs.«424005_j21242908246464_3_alg».proof.Proof.Spec
import proofs.«424005_j21242908246464_3_alg».proof.Proof.KVal0
import proofs.«424005_j21242908246464_3_alg».proof.Proof.KVal1
import proofs.«424005_j21242908246464_3_alg».proof.Proof.KVal2
import Idealize.ShloMosaic.Lib.Pipeline.Value
import Idealize.ShloMosaic.Lib.StableHlo.Run
import Idealize.ShloMosaic.Lib.ValueIdx

/-!
  The two result arrays of the three-call program as functions of its seven arguments.

  The host stretch before the first call transposes Wa and H₁ and changes the format of the four
  weights (the identity on extended reals) and reshapes the bias to one row.  The first call writes
  the centred product X · W₀; the second reads it beside U and the transposed weights and writes Z
  twice and U once more; the third reads those copies and W₁ and writes X'.  Every buffer a call
  does not write keeps what it held, so each call's inputs are read back to the arguments.
-/

set_option maxRecDepth 16384

noncomputable section

open Idealize.ShloMosaic Idealize.ShloMosaic.TcCoe Idealize.SL.Sem Idealize.ShloMosaic.ValueIdx

namespace Cert.KernelIdeal.Hand

open Cert.KernelIdeal Cert.KernelIdeal.Gen Cert.Spec Idealize.ShloMosaic.StableHlo

variable (m : (ℓ : Loc nD τ sig) → Buf (Elt Ideal) ℓ) (ρ : Dev nD → PrngReg)

/-! ## The host stretch before the first call -/

theorem W1_arg0 (c : Dev nD) : W1 m ρ c (Proc.devRef .tc main_arg0) = m ((c : Thread nD τ).loc main_arg0) := by
  show StableHlo.after hostOps0 (W0 m ρ c) (Proc.devRef .tc main_arg0) = _
  after_results

theorem W1_arg1 (c : Dev nD) : W1 m ρ c (Proc.devRef .tc main_arg1) = m ((c : Thread nD τ).loc main_arg1) := by
  show StableHlo.after hostOps0 (W0 m ρ c) (Proc.devRef .tc main_arg1) = _
  after_results

/-- Waᵀ. -/
theorem W1_v1 (c : Dev nD) :
    (W1 m ρ c (Proc.devRef .tc main_v1) : S8192x512.Idx → EReal)
      = (truncf (F := Ideal) .bf16 (transpose S8192x512 [1, 0] (m ((c : Thread nD τ).loc main_arg5) : S512x8192.Idx → EReal)
          transposes_S512x8192_S8192x512_1_0) bitsLt_bf16_f32 : S8192x512.Idx → EReal) := by
  show StableHlo.after hostOps0 (W0 m ρ c) (Proc.devRef .tc main_v1) = _
  after_results

/-- H₁ᵀ. -/
theorem W1_v3 (c : Dev nD) :
    (W1 m ρ c (Proc.devRef .tc main_v3) : S512x8192.Idx → EReal)
      = (truncf (F := Ideal) .bf16 (transpose S512x8192 [1, 0] (m ((c : Thread nD τ).loc main_arg2) : S8192x512.Idx → EReal)
          transposes_S8192x512_S512x8192_1_0) bitsLt_bf16_f32 : S512x8192.Idx → EReal) := by
  show StableHlo.after hostOps0 (W0 m ρ c) (Proc.devRef .tc main_v3) = _
  after_results

/-- W₀ (a change of format is the identity). -/
theorem W1_v4 (c : Dev nD) :
    (W1 m ρ c (Proc.devRef .tc main_v4) : S8192x512.Idx → EReal) = (m ((c : Thread nD τ).loc main_arg3) : S8192x512.Idx → EReal) := by
  show StableHlo.after hostOps0 (W0 m ρ c) (Proc.devRef .tc main_v4) = _
  after_results
  rfl

/-- W₁. -/
theorem W1_v5 (c : Dev nD) :
    (W1 m ρ c (Proc.devRef .tc main_v5) : S512x8192.Idx → EReal) = (m ((c : Thread nD τ).loc main_arg4) : S512x8192.Idx → EReal) := by
  show StableHlo.after hostOps0 (W0 m ρ c) (Proc.devRef .tc main_v5) = _
  after_results
  rfl

/-- The bias as one row. -/
theorem W1_v6 (c : Dev nD) :
    (W1 m ρ c (Proc.devRef .tc main_v6) : S1x512.Idx → EReal)
      = shapeCast S1x512 (m ((c : Thread nD τ).loc main_arg6) : S512.Idx → EReal) shapeCasts_S512_S1x512 := by
  show StableHlo.after hostOps0 (W0 m ρ c) (Proc.devRef .tc main_v6) = _
  after_results
  rfl

/-- Read at its coordinates, the transposed weight is Wa with the coordinates exchanged. -/
theorem cur_W1_v1 (c : Dev nD) :
    cur2 (W1 m ρ c (Proc.devRef .tc main_v1) : S8192x512.Idx → EReal) = trn (cur2 (m ((c : Thread nD τ).loc main_arg5) : S512x8192.Idx → EReal)) := by
  funext k d
  show (W1 m ρ c (Proc.devRef .tc main_v1) : S8192x512.Idx → EReal) (ix2 k d) = (m ((c : Thread nD τ).loc main_arg5) : S512x8192.Idx → EReal) (ix2 d k)
  rw [W1_v1]
  exact transpose_apply [1, 0] _ transposes_S512x8192_S8192x512_1_0 (ix2 k d) (ix2 d k) (fun b => match b with
    | ⟨0, _⟩ => rfl
    | ⟨1, _⟩ => rfl)

theorem cur_W1_v3 (c : Dev nD) :
    cur2 (W1 m ρ c (Proc.devRef .tc main_v3) : S512x8192.Idx → EReal) = trn (cur2 (m ((c : Thread nD τ).loc main_arg2) : S8192x512.Idx → EReal)) := by
  funext d j
  show (W1 m ρ c (Proc.devRef .tc main_v3) : S512x8192.Idx → EReal) (ix2 d j) = (m ((c : Thread nD τ).loc main_arg2) : S8192x512.Idx → EReal) (ix2 j d)
  rw [W1_v3]
  exact transpose_apply [1, 0] _ transposes_S8192x512_S512x8192_1_0 (ix2 d j) (ix2 j d) (fun b => match b with
    | ⟨0, _⟩ => rfl
    | ⟨1, _⟩ => rfl)

/-- The one row of the reshaped bias is the bias. -/
theorem cur_W1_v6 (c : Dev nD) :
    cur2 (W1 m ρ c (Proc.devRef .tc main_v6) : S1x512.Idx → EReal) 0 = cur1 (m ((c : Thread nD τ).loc main_arg6) : S512.Idx → EReal) := by
  funext d
  show (W1 m ρ c (Proc.devRef .tc main_v6) : S1x512.Idx → EReal) (ix2 0 d) = (m ((c : Thread nD τ).loc main_arg6) : S512.Idx → EReal) (ix1 d)
  rw [W1_v6]
  refine (shapeCast_addUnit_apply ![512] _ shapeCasts_S512_S1x512 (ix2 0 d)).trans ?_
  exact congrArg _ (funext fun a => match a with | ⟨0, _⟩ => rfl)

/-! ## After the first call -/

theorem V2_arg0 (c : Dev nD) : V2 m ρ c main_arg0 = m ((c : Thread nD τ).loc main_arg0) :=
  (W2_of_ne m ρ c main_arg0 (by decide)).trans (W1_arg0 m ρ c)

theorem V2_v1 (c : Dev nD) : V2 m ρ c main_v1 = W1 m ρ c (Proc.devRef .tc main_v1) := W2_of_ne m ρ c main_v1 (by decide)
theorem V2_v3 (c : Dev nD) : V2 m ρ c main_v3 = W1 m ρ c (Proc.devRef .tc main_v3) := W2_of_ne m ρ c main_v3 (by decide)
theorem V2_v5 (c : Dev nD) : V2 m ρ c main_v5 = W1 m ρ c (Proc.devRef .tc main_v5) := W2_of_ne m ρ c main_v5 (by decide)
theorem V2_v6 (c : Dev nD) : V2 m ρ c main_v6 = W1 m ρ c (Proc.devRef .tc main_v6) := W2_of_ne m ρ c main_v6 (by decide)

/-- The first call's result: X · W₀ with each row's mean taken off. -/
theorem V2_v7 (c : Dev nD) :
    (V2 m ρ c main_v7 : S8192x512.Idx → EReal)
      = unc2 (cen (cur2 (m ((c : Thread nD τ).loc main_arg1) : S8192x8192.Idx → EReal)) (cur2 (m ((c : Thread nD τ).loc main_arg3) : S8192x512.Idx → EReal))) := by
  refine (W2_arr m ρ c 2).trans ((final0 (V1 m ρ) c).trans ?_)
  show unc2 (cen (cur2 (W1 m ρ c (Proc.devRef .tc main_arg1) : S8192x8192.Idx → EReal)) (cur2 (W1 m ρ c (Proc.devRef .tc main_v4) : S8192x512.Idx → EReal))) = _
  rw [W1_arg1, W1_v4]

/-! ## After the second call -/

/-- What the second call writes for Z, read back to the arguments: the centred encoder. -/
theorem Zof_V2 (c : Dev nD) :
    Zof (V2 m ρ) c
      = ZK (cur2 (m ((c : Thread nD τ).loc main_arg0) : S8192x8192.Idx → EReal)) (cur2 (m ((c : Thread nD τ).loc main_arg1) : S8192x8192.Idx → EReal))
          (trn (cur2 (m ((c : Thread nD τ).loc main_arg2) : S8192x512.Idx → EReal))) (cur2 (m ((c : Thread nD τ).loc main_arg3) : S8192x512.Idx → EReal))
          (trn (cur2 (m ((c : Thread nD τ).loc main_arg5) : S512x8192.Idx → EReal))) (cur1 (m ((c : Thread nD τ).loc main_arg6) : S512.Idx → EReal)) := by
  show softmax (mm (A2 (cur2 (V2 m ρ c main_arg0 : S8192x8192.Idx → EReal)) (cur2 (V2 m ρ c main_v1 : S8192x512.Idx → EReal))
      (cur2 (V2 m ρ c main_v6 : S1x512.Idx → EReal) 0) (cur2 (V2 m ρ c main_v3 : S512x8192.Idx → EReal)))
    (cur2 (V2 m ρ c main_v7 : S8192x512.Idx → EReal))) = _
  rw [V2_arg0, V2_v1, V2_v3, V2_v6, V2_v7, cur_W1_v1, cur_W1_v3, cur_W1_v6, cur2_unc2]
  rfl

theorem V3_v8_0 (c : Dev nD) :
    (V3 m ρ c main_v8_0 : S8192x512.Idx → EReal)
      = arrZK (m ((c : Thread nD τ).loc main_arg0)) (m ((c : Thread nD τ).loc main_arg1)) (m ((c : Thread nD τ).loc main_arg2))
          (m ((c : Thread nD τ).loc main_arg3)) (m ((c : Thread nD τ).loc main_arg5)) (m ((c : Thread nD τ).loc main_arg6)) :=
  (W3_arr m ρ c 5).trans ((final1_5 (V2 m ρ) c).trans (congrArg unc2 (Zof_V2 m ρ c)))

theorem V3_v8_1 (c : Dev nD) :
    (V3 m ρ c main_v8_1 : S8192x512.Idx → EReal)
      = arrZK (m ((c : Thread nD τ).loc main_arg0)) (m ((c : Thread nD τ).loc main_arg1)) (m ((c : Thread nD τ).loc main_arg2))
          (m ((c : Thread nD τ).loc main_arg3)) (m ((c : Thread nD τ).loc main_arg5)) (m ((c : Thread nD τ).loc main_arg6)) :=
  (W3_arr m ρ c 6).trans ((final1_6 (V2 m ρ) c).trans (congrArg unc2 (Zof_V2 m ρ c)))

/-- The copy of U. -/
theorem V3_v8_2 (c : Dev nD) :
    (V3 m ρ c main_v8_2 : S8192x8192.Idx → EReal) = (m ((c : Thread nD τ).loc main_arg0) : S8192x8192.Idx → EReal) :=
  (W3_arr m ρ c 7).trans ((final1_7 (V2 m ρ) c).trans (V2_arg0 m ρ c))

theorem V3_v5 (c : Dev nD) :
    (V3 m ρ c main_v5 : S512x8192.Idx → EReal) = (m ((c : Thread nD τ).loc main_arg4) : S512x8192.Idx → EReal) :=
  (W3_of_ne m ρ c main_v5 (by decide)).trans ((V2_v5 m ρ c).trans (W1_v5 m ρ c))

/-! ## After the third call: the two results -/

/-- Z, the second result. -/
theorem W4_v8_0 (c : Dev nD) :
    (W4 m ρ c (Proc.devRef .tc main_v8_0) : S8192x512.Idx → EReal)
      = arrZK (m ((c : Thread nD τ).loc main_arg0)) (m ((c : Thread nD τ).loc main_arg1)) (m ((c : Thread nD τ).loc main_arg2))
          (m ((c : Thread nD τ).loc main_arg3)) (m ((c : Thread nD τ).loc main_arg5)) (m ((c : Thread nD τ).loc main_arg6)) :=
  (W4_of_ne m ρ c main_v8_0 (by decide)).trans (V3_v8_0 m ρ c)

/-- X', the first result. -/
theorem W4_v9 (c : Dev nD) :
    (W4 m ρ c (Proc.devRef .tc main_v9) : S8192x8192.Idx → EReal)
      = arrXpK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (W4_arr m ρ c 3).trans ((final2_3 (V3 m ρ) c).trans ?_)
  show unc2 (fun i j => sigK (mm (mm (cur2 (V3 m ρ c main_v8_2 : S8192x8192.Idx → EReal)) (cur2 (V3 m ρ c main_v8_1 : S8192x512.Idx → EReal)))
      (cur2 (V3 m ρ c main_v5 : S512x8192.Idx → EReal)) i j)) = _
  rw [V3_v8_2, V3_v8_1, V3_v5]
  unfold arrXpK arrZK
  rw [cur2_unc2]
  rfl

end Cert.KernelIdeal.Hand

end
-- ==== Proof.RefValue.lean ====
import proofs.«424005_j21242908246464_3_alg».proof.Proof.Gen.ReferenceIdeal.Run
import proofs.«424005_j21242908246464_3_alg».proof.Proof.Gen.ReferenceIdeal.Read
import proofs.«424005_j21242908246464_3_alg».proof.Proof.Spec
import Idealize.ShloMosaic.Lib.Pipeline.Value
import Idealize.ShloMosaic.Lib.ValueIdx
import Idealize.ShloMosaic.PureOps.Ideal.Laws
import Idealize.ShloMosaic.PureOps.Reduce

set_option maxRecDepth 16384

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.Spec

variable (m : (ℓ : Loc nD τ sig) → Buf (Elt Ideal) ℓ)

/-! The reference program computes, stage by stage, K = tanh (U · Waᵀ + ba), the score logits K · H₁ᵀ, their
softmax along each row, A = U ∘ that softmax, the logits (A · X) · W₀, Z their softmax along each row, and
X' = 1 / (1 + e^{-((U · Z) · W₁)}).  Each stage is read here at a pair of coordinates and identified with the
specification's matrix of the same name; the two results are the last stages of the two chains. -/

/-! ## Row maxima read off the host's one-axis reduction -/

/-- The fold of a row of an 8192 × 8192 array under the host's one-axis maximum reduction. -/
theorem reduce_max88 (y : S8192x8192.Idx → EReal) (init : S_.Idx → EReal) (p : Fin 8192) :
    Host.reduce (FloatOps.maximumf (F := Ideal) (φ := .f32)) y init reducesTo_S8192x8192_S8192_d1 h_S_ (ix1 p)
      = (Finset.univ : Finset (Fin 8192)).fold max (init (Shape.Idx.first h_S_)) (fun k => y (ix2 p k)) := by
  have h : S8192x8192.Reduces [1] S8192 := by decide
  rw [Host.reduce_eq_fold_single _ y init _ h h_S_ (ix1 p)]
  have e : (y ∘ h.lift (ix1 p)) = fun k : Fin 8192 => y (ix2 p k) :=
    funext fun k => congrArg y (funext fun a => Fin.ext (by match a with | ⟨0, _⟩ => rfl | ⟨1, _⟩ => rfl))
  rw [e]; rfl

/-- The fold of a row of an 8192 × 512 array under the host's one-axis maximum reduction. -/
theorem reduce_max85 (y : S8192x512.Idx → EReal) (init : S_.Idx → EReal) (p : Fin 8192) :
    Host.reduce (FloatOps.maximumf (F := Ideal) (φ := .f32)) y init reducesTo_S8192x512_S8192_d1 h_S_ (ix1 p)
      = (Finset.univ : Finset (Fin 512)).fold max (init (Shape.Idx.first h_S_)) (fun k => y (ix2 p k)) := by
  have h : S8192x512.Reduces [1] S8192 := by decide
  rw [Host.reduce_eq_fold_single _ y init _ h h_S_ (ix1 p)]
  have e : (y ∘ h.lift (ix1 p)) = fun k : Fin 512 => y (ix2 p k) :=
    funext fun k => congrArg y (funext fun a => Fin.ext (by match a with | ⟨0, _⟩ => rfl | ⟨1, _⟩ => rfl))
  rw [e]; rfl

/-! ## The composed index maps at a pair of coordinates

Each of the reference's layout operations reads its operand at an index computed from the result's; at the
index (p, q) these compositions are again an index built from coordinates. -/

section Indices

variable (p q k : Fin 8192) (d l : Fin 512)

theorem lidx1 : Read.lidx_main_v1 (ix2 p d) k = ix2 p k :=
  funext fun a => Fin.ext (by match a with | ⟨0, _⟩ => rfl | ⟨1, _⟩ => rfl)
theorem ridx1 : Read.idx_main_v0 (Read.ridx_main_v1 (ix2 p d) k) = ix2 d k :=
  funext fun a => Fin.ext (by match a with | ⟨0, _⟩ => rfl | ⟨1, _⟩ => rfl)
theorem idx3 : Read.idx_main_v2 (Read.idx_main_v3 (ix2 p d)) = ix1 d :=
  funext fun a => Fin.ext (by match a with | ⟨0, _⟩ => rfl)
theorem lidx7 : Read.lidx_main_v7 (ix2 p q) l = ix2 p l :=
  funext fun a => Fin.ext (by match a with | ⟨0, _⟩ => rfl | ⟨1, _⟩ => rfl)
theorem ridx7 : Read.idx_main_v6 (Read.ridx_main_v7 (ix2 p q) l) = ix2 q l :=
  funext fun a => Fin.ext (by match a with | ⟨0, _⟩ => rfl | ⟨1, _⟩ => rfl)
theorem idx12 : Read.idx_main_v11 (Read.idx_main_v12 (ix2 p q)) = ix1 p :=
  funext fun a => Fin.ext (by match a with | ⟨0, _⟩ => rfl)
theorem idx17 : Read.idx_main_v15 (Read.idx_main_v16 (Read.idx_main_v17 (ix2 p q))) k = ix2 p k :=
  funext fun a => Fin.ext (by match a with | ⟨0, _⟩ => rfl | ⟨1, _⟩ => rfl)
theorem lidx20 : Read.lidx_main_v20 (ix2 p q) k = ix2 p k :=
  funext fun a => Fin.ext (by match a with | ⟨0, _⟩ => rfl | ⟨1, _⟩ => rfl)
theorem ridx20 : Read.ridx_main_v20 (ix2 p q) k = ix2 k q :=
  funext fun a => Fin.ext (by match a with | ⟨0, _⟩ => rfl | ⟨1, _⟩ => rfl)
theorem lidx21 : Read.lidx_main_v21 (ix2 p d) k = ix2 p k :=
  funext fun a => Fin.ext (by match a with | ⟨0, _⟩ => rfl | ⟨1, _⟩ => rfl)
theorem ridx21 : Read.ridx_main_v21 (ix2 p d) k = ix2 k d :=
  funext fun a => Fin.ext (by match a with | ⟨0, _⟩ => rfl | ⟨1, _⟩ => rfl)
theorem idx26 : Read.idx_main_v25 (Read.idx_main_v26 (ix2 p d)) = ix1 p :=
  funext fun a => Fin.ext (by match a with | ⟨0, _⟩ => rfl)
theorem idx31 : Read.idx_main_v29 (Read.idx_main_v30 (Read.idx_main_v31 (ix2 p d))) l = ix2 p l :=
  funext fun a => Fin.ext (by match a with | ⟨0, _⟩ => rfl | ⟨1, _⟩ => rfl)
theorem lidx33 : Read.lidx_main_v33 (ix2 p d) k = ix2 p k :=
  funext fun a => Fin.ext (by match a with | ⟨0, _⟩ => rfl | ⟨1, _⟩ => rfl)
theorem ridx33 : Read.ridx_main_v33 (ix2 p d) k = ix2 k d :=
  funext fun a => Fin.ext (by match a with | ⟨0, _⟩ => rfl | ⟨1, _⟩ => rfl)
theorem lidx34 : Read.lidx_main_v34 (ix2 p q) l = ix2 p l :=
  funext fun a => Fin.ext (by match a with | ⟨0, _⟩ => rfl | ⟨1, _⟩ => rfl)
theorem ridx34 : Read.ridx_main_v34 (ix2 p q) l = ix2 l q :=
  funext fun a => Fin.ext (by match a with | ⟨0, _⟩ => rfl | ⟨1, _⟩ => rfl)

end Indices

section Indices2
variable (p q k : Fin 8192) (d l : Fin 512)
theorem idx15 : Read.idx_main_v15 (ix1 p) k = ix2 p k :=
  funext fun a => Fin.ext (by match a with | ⟨0, _⟩ => rfl | ⟨1, _⟩ => rfl)
theorem idx16 : Read.idx_main_v16 (Read.idx_main_v17 (ix2 p q)) = ix1 p :=
  funext fun a => Fin.ext (by match a with | ⟨0, _⟩ => rfl)
theorem idx29 : Read.idx_main_v29 (ix1 p) l = ix2 p l :=
  funext fun a => Fin.ext (by match a with | ⟨0, _⟩ => rfl | ⟨1, _⟩ => rfl)
theorem idx30 : Read.idx_main_v30 (Read.idx_main_v31 (ix2 p d)) = ix1 p :=
  funext fun a => Fin.ext (by match a with | ⟨0, _⟩ => rfl)
end Indices2
/-! ## The stages, each a matrix as a function of two coordinates -/

section Stages

variable (x0 x1 : A88) (x2 x3 : A85) (x4 x5 : A58) (x6 : A5)

/-- K = tanh (U · Waᵀ + ba). -/
theorem v5_eq : cur2 (Read.val_main_v5 (F := Ideal) x0 x5 x6) = Kmat (cur2 x0) (trn (cur2 x5)) (cur1 x6) := by
  funext p d
  show Read.val_main_v5 (F := Ideal) x0 x5 x6 (ix2 p d) = _
  rw [Read.val_main_v5_apply, Read.val_main_v4_apply, Read.val_main_v1_apply, Read.val_main_v3_apply,
    Read.val_main_v2_apply]
  simp only [Read.val_main_v0_apply, lidx1, ridx1, idx3, Ideal.hostUnary_tanh_def, Ideal.addf_def]
  rfl

/-- The score logits K · H₁ᵀ. -/
theorem v7_eq : cur2 (Read.val_main_v7 (F := Ideal) x0 x2 x5 x6)
    = mm (Kmat (cur2 x0) (trn (cur2 x5)) (cur1 x6)) (trn (cur2 x2)) := by
  funext p q
  show Read.val_main_v7 (F := Ideal) x0 x2 x5 x6 (ix2 p q) = _
  rw [Read.val_main_v7_apply, ← v5_eq]
  generalize Read.val_main_v5 (F := Ideal) x0 x5 x6 = y
  simp only [Read.val_main_v6_apply, lidx7, ridx7]
  rfl

/-- The row maximum of the score logits, as the reference takes it. -/
theorem v8_eq (p : Fin 8192) : Read.val_main_v8 (F := Ideal) x0 x2 x5 x6 (ix1 p)
    = rowMax (cur2 (Read.val_main_v7 (F := Ideal) x0 x2 x5 x6)) p := by
  unfold Read.val_main_v8
  generalize Read.val_main_v7 (F := Ideal) x0 x2 x5 x6 = y
  rw [reduce_max88, Read.val_main_cst_apply, Ideal.ofBits_def, ofBits_ninf]
  rfl

/-- An entry of the exponentials of the score logits, each row shifted by its maximum. -/
theorem v14_eq (p q : Fin 8192) : Read.val_main_v14 (F := Ideal) x0 x2 x5 x6 (ix2 p q)
    = Ideal.exp (Read.val_main_v7 (F := Ideal) x0 x2 x5 x6 (ix2 p q)
        - rowMax (cur2 (Read.val_main_v7 (F := Ideal) x0 x2 x5 x6)) p) := by
  rw [Read.val_main_v14_apply, Read.val_main_v13_apply, Read.val_main_v12_apply, Read.val_main_v11_apply,
    Read.val_main_v10_apply, Read.val_main_v9_apply, Read.val_main_cst_0_apply, idx12, v8_eq,
    Ideal.hostUnary_exp_def, Ideal.subf_def, Ideal.maximumf_def, Ideal.ofBits_def, ofBits_ninf, bot_sup_eq]

/-- A row's sum of those exponentials. -/
theorem v15_eq (p : Fin 8192) : Read.val_main_v15 (F := Ideal) x0 x2 x5 x6 (ix1 p)
    = ∑ k : Fin 8192, Ideal.exp (Read.val_main_v7 (F := Ideal) x0 x2 x5 x6 (ix2 p k)
        - rowMax (cur2 (Read.val_main_v7 (F := Ideal) x0 x2 x5 x6)) p) := by
  rw [Read.val_main_v15_apply, Read.val_main_cst_1_apply, Ideal.ofBits_def, ofBits_zero, zero_add]
  refine Finset.sum_congr rfl fun k _ => ?_
  rw [idx15, v14_eq]

/-- The softmax of the score logits along each row. -/
theorem v18_eq : cur2 (Read.val_main_v18 (F := Ideal) x0 x2 x5 x6)
    = softmax (cur2 (Read.val_main_v7 (F := Ideal) x0 x2 x5 x6)) := by
  funext p q
  show Read.val_main_v18 (F := Ideal) x0 x2 x5 x6 (ix2 p q) = _
  rw [Read.val_main_v18_apply, Read.val_main_v17_apply, Read.val_main_v16_apply, idx16, v15_eq, v14_eq,
    Ideal.hostDivf_def]
  generalize Read.val_main_v7 (F := Ideal) x0 x2 x5 x6 = y
  rfl

/-- A = U ∘ softmax (K · H₁ᵀ). -/
theorem v19_eq : cur2 (Read.val_main_v19 (F := Ideal) x0 x2 x5 x6)
    = A2 (cur2 x0) (trn (cur2 x5)) (cur1 x6) (trn (cur2 x2)) := by
  funext p q
  show Read.val_main_v19 (F := Ideal) x0 x2 x5 x6 (ix2 p q) = _
  rw [Read.val_main_v19_apply, Ideal.mulf_def]
  unfold A2
  rw [← v7_eq, ← v18_eq]
  rfl

/-- A · X. -/
theorem v20_eq : cur2 (Read.val_main_v20 (F := Ideal) x0 x1 x2 x5 x6)
    = mm (A2 (cur2 x0) (trn (cur2 x5)) (cur1 x6) (trn (cur2 x2))) (cur2 x1) := by
  funext p q
  show Read.val_main_v20 (F := Ideal) x0 x1 x2 x5 x6 (ix2 p q) = _
  rw [Read.val_main_v20_apply, ← v19_eq]
  generalize Read.val_main_v19 (F := Ideal) x0 x2 x5 x6 = y
  simp only [lidx20, ridx20]
  rfl

/-- (A · X) · W₀, the logits of Z. -/
theorem v21_eq : cur2 (Read.val_main_v21 (F := Ideal) x0 x1 x2 x3 x5 x6)
    = mm (mm (A2 (cur2 x0) (trn (cur2 x5)) (cur1 x6) (trn (cur2 x2))) (cur2 x1)) (cur2 x3) := by
  funext p d
  show Read.val_main_v21 (F := Ideal) x0 x1 x2 x3 x5 x6 (ix2 p d) = _
  rw [Read.val_main_v21_apply, ← v20_eq]
  generalize Read.val_main_v20 (F := Ideal) x0 x1 x2 x5 x6 = y
  simp only [lidx21, ridx21]
  rfl

/-- The row maximum of the logits of Z, as the reference takes it. -/
theorem v22_eq (p : Fin 8192) : Read.val_main_v22 (F := Ideal) x0 x1 x2 x3 x5 x6 (ix1 p)
    = rowMax (cur2 (Read.val_main_v21 (F := Ideal) x0 x1 x2 x3 x5 x6)) p := by
  unfold Read.val_main_v22
  generalize Read.val_main_v21 (F := Ideal) x0 x1 x2 x3 x5 x6 = y
  rw [reduce_max85, Read.val_main_cst_2_apply, Ideal.ofBits_def, ofBits_ninf]
  rfl

/-- An entry of the exponentials of the logits of Z, each row shifted by its maximum. -/
theorem v28_eq (p : Fin 8192) (d : Fin 512) : Read.val_main_v28 (F := Ideal) x0 x1 x2 x3 x5 x6 (ix2 p d)
    = Ideal.exp (Read.val_main_v21 (F := Ideal) x0 x1 x2 x3 x5 x6 (ix2 p d)
        - rowMax (cur2 (Read.val_main_v21 (F := Ideal) x0 x1 x2 x3 x5 x6)) p) := by
  rw [Read.val_main_v28_apply, Read.val_main_v27_apply, Read.val_main_v26_apply, Read.val_main_v25_apply,
    Read.val_main_v24_apply, Read.val_main_v23_apply, Read.val_main_cst_3_apply, idx26, v22_eq,
    Ideal.hostUnary_exp_def, Ideal.subf_def, Ideal.maximumf_def, Ideal.ofBits_def, ofBits_ninf, bot_sup_eq]

/-- A row's sum of those exponentials. -/
theorem v29_eq (p : Fin 8192) : Read.val_main_v29 (F := Ideal) x0 x1 x2 x3 x5 x6 (ix1 p)
    = ∑ l : Fin 512, Ideal.exp (Read.val_main_v21 (F := Ideal) x0 x1 x2 x3 x5 x6 (ix2 p l)
        - rowMax (cur2 (Read.val_main_v21 (F := Ideal) x0 x1 x2 x3 x5 x6)) p) := by
  rw [Read.val_main_v29_apply, Read.val_main_cst_4_apply, Ideal.ofBits_def, ofBits_zero, zero_add]
  refine Finset.sum_congr rfl fun l _ => ?_
  rw [idx29, v28_eq]

/-- Z = softmax ((A · X) · W₀) along each row. -/
theorem v32_eq : cur2 (Read.val_main_v32 (F := Ideal) x0 x1 x2 x3 x5 x6)
    = ZR (cur2 x0) (cur2 x1) (trn (cur2 x2)) (cur2 x3) (trn (cur2 x5)) (cur1 x6) := by
  unfold ZR
  rw [← v21_eq]
  funext p d
  show Read.val_main_v32 (F := Ideal) x0 x1 x2 x3 x5 x6 (ix2 p d) = _
  rw [Read.val_main_v32_apply, Read.val_main_v31_apply, Read.val_main_v30_apply, idx30, v29_eq, v28_eq,
    Ideal.hostDivf_def]
  generalize Read.val_main_v21 (F := Ideal) x0 x1 x2 x3 x5 x6 = y
  rfl

/-- U · Z. -/
theorem v33_eq : cur2 (Read.val_main_v33 (F := Ideal) x0 x1 x2 x3 x5 x6)
    = mm (cur2 x0) (ZR (cur2 x0) (cur2 x1) (trn (cur2 x2)) (cur2 x3) (trn (cur2 x5)) (cur1 x6)) := by
  funext p d
  show Read.val_main_v33 (F := Ideal) x0 x1 x2 x3 x5 x6 (ix2 p d) = _
  rw [Read.val_main_v33_apply, ← v32_eq]
  generalize Read.val_main_v32 (F := Ideal) x0 x1 x2 x3 x5 x6 = y
  simp only [lidx33, ridx33]
  rfl

/-- (U · Z) · W₁, the logits of X'. -/
theorem v34_eq : cur2 (Read.val_main_v34 (F := Ideal) x0 x1 x2 x3 x4 x5 x6)
    = mm (mm (cur2 x0) (ZR (cur2 x0) (cur2 x1) (trn (cur2 x2)) (cur2 x3) (trn (cur2 x5)) (cur1 x6))) (cur2 x4) := by
  funext p q
  show Read.val_main_v34 (F := Ideal) x0 x1 x2 x3 x4 x5 x6 (ix2 p q) = _
  rw [Read.val_main_v34_apply, ← v33_eq]
  generalize Read.val_main_v33 (F := Ideal) x0 x1 x2 x3 x5 x6 = y
  simp only [lidx34, ridx34]
  rfl

/-- X' = 1 / (1 + e^{-((U · Z) · W₁)}). -/
theorem v40_eq : cur2 (Read.val_main_v40 (F := Ideal) x0 x1 x2 x3 x4 x5 x6)
    = XpR (cur2 x0) (cur2 x1) (trn (cur2 x2)) (cur2 x3) (trn (cur2 x5)) (cur1 x6) (cur2 x4) := by
  funext p q
  show Read.val_main_v40 (F := Ideal) x0 x1 x2 x3 x4 x5 x6 (ix2 p q) = _
  unfold XpR
  rw [← v34_eq, Read.val_main_v40_apply, Read.val_main_v39_apply, Read.val_main_cst_6_apply,
    Read.val_main_v38_apply, Read.val_main_v37_apply, Read.val_main_cst_5_apply, Read.val_main_v36_apply,
    Read.val_main_v35_apply, Ideal.hostDivf_def, Ideal.addf_def, Ideal.hostUnary_exp_def, Ideal.hostNegf_def,
    Ideal.negf_def, Ideal.ofBits_def, ofBits_one]
  generalize Read.val_main_v34 (F := Ideal) x0 x1 x2 x3 x4 x5 x6 = y
  rfl

end Stages

/-- The reference's second result is Z as written, of its argument arrays. -/
theorem out1_eq (c : Dev nD) :
    Cert.ReferenceIdeal.Value.res_out1 (F := Ideal) m c
      = arrZR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg5)) (m ((c.tc : Thread nD τ).loc main_arg6)) := by
  show Cert.ReferenceIdeal.Value.res_main_v32 (F := Ideal) m c = _
  rw [Read.val_main_v32_eq]
  unfold arrZR
  rw [← v32_eq, unc2_cur2]

/-- The reference's first result is X' as written, of its argument arrays. -/
theorem out0_eq (c : Dev nD) :
    Cert.ReferenceIdeal.Value.res_out0 (F := Ideal) m c
      = arrXpR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  show Cert.ReferenceIdeal.Value.res_main_v40 (F := Ideal) m c = _
  rw [Read.val_main_v40_eq]
  unfold arrXpR
  rw [← v40_eq, unc2_cur2]

end Cert.ReferenceIdeal.RefValue

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.PreReal.lean ====
import proofs.«424005_j21242908246464_3_alg».proof.Pre_finite_inputs
import proofs.«424005_j21242908246464_3_alg».proof.Proof.Gen.Pre_finite_inputs
import proofs.«424005_j21242908246464_3_alg».proof.Proof.LibReal
import Idealize.ShloMosaic.Lib.ReduceAll
import Idealize.ShloMosaic.Lib.ValueIdx
import Idealize.ShloMosaic.PureOps.Ideal.Laws

set_option maxRecDepth 16384

noncomputable section

open Idealize.ShloMosaic Idealize.ShloMosaic.ValueIdx

namespace Cert.PreReal

open Cert.Pre_finite_inputs Cert.LibReal

/-- The float word 0x7F800000 is +∞. -/
theorem ofBits_pinf : Ideal.ofBits .f32 0x7F800000#32 = ⊤ := by
  simp [Ideal.ofBits, Ideal.ieee]

/-- An extended real whose absolute value max x (-x) lies below +∞ is a real number: at either
    infinity the absolute value is +∞ itself. -/
theorem isReal_of_abs_lt_top (x : EReal) (h : max x (-x) < ⊤) : IsReal x := by
  induction x using EReal.rec with
  | bot => exact absurd h (by simp)
  | coe r => exact ⟨r, rfl⟩
  | top => exact absurd h (by simp)

/-- The scalar shape has exactly one index. -/
instance : Subsingleton S_.Idx := ⟨fun a b => funext fun d => d.elim0⟩

/-- One entry passing the test |x| < +∞ is a real number: the compare bit at an index is the
    order's comparison of max (x i) (-(x i)) with the broadcast word, which is +∞. -/
theorem isReal_of_bit {s : Shape} (hb : S_.BroadcastsInDim s (![] : Fin 0 → Fin s.rank))
    (x : FVec Ideal s .f32) (i : s.Idx)
    (h : cmpf .olt (Host.absf x) (broadcastInDim s ![] hb (constant (F := Ideal) S_ .f32 0x7F800000#32)) i = 1#1) :
    IsReal (x i) := by
  have e : cmpf .olt (Host.absf x) (broadcastInDim s ![] hb (constant (F := Ideal) S_ .f32 0x7F800000#32)) i
      = Ideal.cmp .olt (max (x i) (-(x i))) (Ideal.ofBits .f32 0x7F800000#32) := rfl
  rw [e, ofBits_pinf] at h
  refine isReal_of_abs_lt_top (x i) ?_
  unfold Ideal.cmp at h
  by_contra hn
  simp [hn] at h

/-- An array whose test "every |entry| < +∞", reduced by and over all its axes into the scalar
    shape, came out 1 has only real entries: a conjunction over all indices that is 1 is 1 at each. -/
theorem isReal_of_all {s : Shape} {axes : List (Fin s.rank)}
    (hb : S_.BroadcastsInDim s (![] : Fin 0 → Fin s.rank)) (hr : s.ReducesTo axes S_) (hu : 0 < S_.numel)
    (x : FVec Ideal s .f32) (init : IVec S_ 1)
    (h : Host.reduce IntOp.andi
        (cmpf .olt (Host.absf x) (broadcastInDim s ![] hb (constant (F := Ideal) S_ .f32 0x7F800000#32)))
        init hr hu ix0 = 1#1) (i : s.Idx) : IsReal (x i) :=
  isReal_of_bit hb x i (Host.reduce_andi_all _ init hr hu ix0 h i)

/-- Where the precondition's predicate is all ones, every entry of every argument array is a real
    number: each conjunct says |x| < +∞ of every entry of one array, and an extended real whose absolute
    value is below +∞ is neither infinity. -/
theorem real_of_fn (a0 a1 : FVec Ideal S8192x8192 .f32) (a2 a3 : FVec Ideal S8192x512 .f32)
    (a4 a5 : FVec Ideal S512x8192 .f32) (a6 : FVec Ideal S512 .f32)
    (h : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) := by
  -- the predicate at its one index is the and of seven bits, one per array; each is 1
  have h0 := congrFun h ix0
  dsimp only [fn, fn_part1] at h0
  obtain ⟨h05, h6⟩ := IntOp.andi_eq_one.1 h0
  obtain ⟨h04, h5⟩ := IntOp.andi_eq_one.1 h05
  obtain ⟨h03, h4⟩ := IntOp.andi_eq_one.1 h04
  obtain ⟨h02, h3⟩ := IntOp.andi_eq_one.1 h03
  obtain ⟨h01, h2⟩ := IntOp.andi_eq_one.1 h02
  obtain ⟨h0', h1⟩ := IntOp.andi_eq_one.1 h01
  exact ⟨isReal_of_all _ _ _ a0 _ h0', isReal_of_all _ _ _ a1 _ h1, isReal_of_all _ _ _ a2 _ h2,
    isReal_of_all _ _ _ a3 _ h3, isReal_of_all _ _ _ a4 _ h4, isReal_of_all _ _ _ a5 _ h5,
    isReal_of_all _ _ _ a6 _ h6⟩

end Cert.PreReal

end
-- ==== Proof.MathZ.lean ====
import proofs.«424005_j21242908246464_3_alg».proof.Proof.Spec
import proofs.«424005_j21242908246464_3_alg».proof.Proof.LibReal
import Mathlib.Analysis.SpecialFunctions.Exp

noncomputable section

open scoped BigOperators

namespace Cert.Math

open Idealize.ShloMosaic Cert.Spec Cert.LibReal

/-! ## Realness propagates -/

/-- A product of real matrices has real entries. -/
theorem mm_isReal {n k m : ℕ} (A : Fin n → Fin k → EReal) (B : Fin k → Fin m → EReal)
    (hA : ∀ i j, IsReal (A i j)) (hB : ∀ i j, IsReal (B i j)) (i : Fin n) (j : Fin m) :
    IsReal (mm A B i j) :=
  IsReal.sum _ _ fun l _ => IsReal.mul (hA i l) (hB l j)

/-- The hyperbolic tangent of a real is real. -/
theorem tanh_isReal {x : EReal} : IsReal x → IsReal (Ideal.tanh x) := by
  rintro ⟨a, rfl⟩
  exact ⟨Real.tanh a, Ideal.tanh_coe a⟩

/-- The running maximum from -∞ over a nonempty finite set of reals is real: the first entry
    replaces -∞, every later step is a maximum of two reals. -/
theorem fold_max_isReal {ι : Type} (s : Finset ι) (g : ι → EReal) :
    (∀ j ∈ s, IsReal (g j)) → s.Nonempty → IsReal (s.fold max ⊥ g) := by
  classical
  refine Finset.induction_on s ?_ ?_
  · intro _ h
    exact absurd h Finset.not_nonempty_empty
  · intro a t ha ih hg _
    rw [Finset.fold_insert ha]
    rcases t.eq_empty_or_nonempty with rfl | ht
    · rw [Finset.fold_empty, max_bot_right]
      exact hg a (Finset.mem_insert_self _ _)
    · exact IsReal.max (hg a (Finset.mem_insert_self _ _))
        (ih (fun j hj => hg j (Finset.mem_insert_of_mem hj)) ht)

/-- Subtracting one amount from every entry subtracts it from the running maximum:
    x ↦ x - c is monotone and fixes -∞. -/
theorem fold_max_sub {ι : Type} (s : Finset ι) (g : ι → EReal) (c : EReal) :
    s.fold max ⊥ (fun j => g j - c) = s.fold max ⊥ g - c := by
  classical
  refine Finset.induction_on s ?_ ?_
  · rw [Finset.fold_empty, Finset.fold_empty]
    exact (EReal.bot_sub c).symm
  · intro a t ha ih
    rw [Finset.fold_insert ha, Finset.fold_insert ha, ih]
    have hmono : Monotone fun x : EReal => x - c := fun x y h => EReal.sub_le_sub h le_rfl
    exact (hmono.map_max (a := g a) (b := t.fold max ⊥ g)).symm

/-- A nonempty finite sum of exponentials of reals is not zero: it is a positive real. -/
theorem sum_exp_ne_zero {ι : Type} (s : Finset ι) (g : ι → EReal) (hg : ∀ j, IsReal (g j))
    (hs : s.Nonempty) : ∑ j ∈ s, Ideal.exp (g j) ≠ 0 := by
  choose r hr using hg
  have hG : g = fun j => (r j : EReal) := funext hr
  subst hG
  simp only [Ideal.exp_coe]
  rw [← coe_sum]
  intro h
  have h0 : (∑ j ∈ s, Real.exp (r j)) = 0 := by exact_mod_cast h
  have hpos : 0 < ∑ j ∈ s, Real.exp (r j) := Finset.sum_pos (fun j _ => Real.exp_pos _) hs
  exact (ne_of_gt hpos) h0

/-- The softmax of a real matrix has real entries. -/
theorem softmax_isReal {n m : ℕ} (L : Fin n → Fin m → EReal) (hL : ∀ i j, IsReal (L i j))
    (i : Fin n) (j : Fin m) : IsReal (softmax L i j) := by
  have hne : (Finset.univ : Finset (Fin m)).Nonempty := ⟨j, Finset.mem_univ j⟩
  have hM : IsReal (rowMax L i) := fold_max_isReal Finset.univ (L i) (fun j' _ => hL i j') hne
  unfold softmax
  exact IsReal.div (IsReal.exp (IsReal.sub (hL i j) hM))
    (IsReal.sum _ _ fun j' _ => IsReal.exp (IsReal.sub (hL i j') hM))
    (sum_exp_ne_zero Finset.univ (fun j' => L i j' - rowMax L i)
      (fun j' => IsReal.sub (hL i j') hM) hne)

/-- The attention weights are real on real entries. -/
theorem A2_isReal {n k m : ℕ} (U : Fin n → Fin k → EReal) (WaT : Fin k → Fin m → EReal) (ba : Fin m → EReal)
    (H1T : Fin m → Fin k → EReal)
    (hU : ∀ i j, IsReal (U i j)) (hWa : ∀ i j, IsReal (WaT i j)) (hba : ∀ i, IsReal (ba i))
    (hH : ∀ i j, IsReal (H1T i j)) (i : Fin n) (j : Fin k) : IsReal (A2 U WaT ba H1T i j) := by
  unfold A2
  refine IsReal.mul (hU i j) (softmax_isReal _ (mm_isReal _ _ ?_ hH) i j)
  intro p q
  unfold Kmat
  exact tanh_isReal (IsReal.add (mm_isReal _ _ hU hWa p q) (hba q))

/-! ## The triple product associates, and a row's shift comes out of a product -/

/-- (A · X) · W = A · (X · W) on real entries. -/
theorem mm_assoc {n k l m : ℕ} (A : Fin n → Fin k → EReal) (X : Fin k → Fin l → EReal) (W : Fin l → Fin m → EReal)
    (hA : ∀ i j, IsReal (A i j)) (hX : ∀ i j, IsReal (X i j)) (hW : ∀ i j, IsReal (W i j)) :
    mm A (mm X W) = mm (mm A X) W := by
  choose a ha using hA
  choose x hx using hX
  choose w hw using hW
  have hA' : A = fun i j => (a i j : EReal) := funext fun i => funext fun j => ha i j
  have hX' : X = fun i j => (x i j : EReal) := funext fun i => funext fun j => hx i j
  have hW' : W = fun i j => (w i j : EReal) := funext fun i => funext fun j => hw i j
  subst hA' hX' hW'
  funext i d
  simp only [mm, ← EReal.coe_mul, ← coe_sum]
  congr 1
  simp only [Finset.mul_sum, Finset.sum_mul]
  rw [Finset.sum_comm]
  exact Finset.sum_congr rfl fun p _ => Finset.sum_congr rfl fun q _ => by ring

/-- A · (B with μ_j taken off row j) = A · B with Σ_j A i j · μ_j taken off row i, on real entries. -/
theorem mm_sub_row {n k m : ℕ} (A : Fin n → Fin k → EReal) (B : Fin k → Fin m → EReal) (μ : Fin k → EReal)
    (hA : ∀ i j, IsReal (A i j)) (hB : ∀ i j, IsReal (B i j)) (hμ : ∀ j, IsReal (μ j)) (i : Fin n) (d : Fin m) :
    mm A (fun j d => B j d - μ j) i d = mm A B i d - ∑ j, A i j * μ j := by
  choose a ha using hA
  choose b hb using hB
  choose u hu using hμ
  have hA' : A = fun i j => (a i j : EReal) := funext fun i => funext fun j => ha i j
  have hB' : B = fun i j => (b i j : EReal) := funext fun i => funext fun j => hb i j
  have hμ' : μ = fun j => (u j : EReal) := funext hu
  subst hA' hB' hμ'
  simp only [mm, ← EReal.coe_sub, ← EReal.coe_mul, ← coe_sum]
  congr 1
  rw [← Finset.sum_sub_distrib]
  exact Finset.sum_congr rfl fun j _ => by ring

/-! ## A softmax does not see a shift of a whole row -/

/-- Taking a real s i off every logit of row i leaves the softmax of a real matrix unchanged. -/
theorem softmax_shift {n m : ℕ} (L : Fin n → Fin m → EReal) (s : Fin n → EReal)
    (hL : ∀ i j, IsReal (L i j)) (hs : ∀ i, IsReal (s i)) :
    softmax (fun i d => L i d - s i) = softmax L := by
  funext i d
  have hne : (Finset.univ : Finset (Fin m)).Nonempty := ⟨d, Finset.mem_univ d⟩
  have hM : IsReal (rowMax L i) := fold_max_isReal Finset.univ (L i) (fun j' _ => hL i j') hne
  have hr : rowMax (fun i d => L i d - s i) i = rowMax L i - s i := fold_max_sub Finset.univ (L i) (s i)
  have key : ∀ j, (L i j - s i) - (rowMax L i - s i) = L i j - rowMax L i := by
    intro j
    obtain ⟨a, ha⟩ := hL i j
    obtain ⟨b, hb⟩ := hs i
    obtain ⟨c, hc⟩ := hM
    rw [ha, hb, hc, ← EReal.coe_sub, ← EReal.coe_sub, ← EReal.coe_sub, ← EReal.coe_sub]
    congr 1
    ring
  unfold softmax
  rw [hr]
  simp only [key]

variable {n m : ℕ}

/-- On real entries the centred encoder is the encoder as written: the triple product associates, and
    taking a row's mean off X · W₀ shifts every logit of a row of Z by one real amount, which the
    softmax along that row does not see. -/
theorem ZK_eq_ZR (U X : Fin n → Fin n → EReal) (H1T : Fin m → Fin n → EReal) (W0 WaT : Fin n → Fin m → EReal)
    (ba : Fin m → EReal)
    (hU : ∀ i j, IsReal (U i j)) (hX : ∀ i j, IsReal (X i j)) (hH : ∀ i j, IsReal (H1T i j))
    (hW0 : ∀ i j, IsReal (W0 i j)) (hWa : ∀ i j, IsReal (WaT i j)) (hba : ∀ i, IsReal (ba i)) :
    ZK U X H1T W0 WaT ba = ZR U X H1T W0 WaT ba := by
  have hA : ∀ i j, IsReal (A2 U WaT ba H1T i j) := A2_isReal U WaT ba H1T hU hWa hba hH
  have hXW : ∀ i j, IsReal (mm X W0 i j) := mm_isReal X W0 hX hW0
  have h512 : ((512 : ℝ) : EReal) ≠ 0 := by exact_mod_cast (by norm_num : (512 : ℝ) ≠ 0)
  have hμ : ∀ j, IsReal (Ideal.div (∑ d' : Fin m, mm X W0 j d') ((512 : ℝ) : EReal)) := fun j =>
    IsReal.div (IsReal.sum _ _ fun d' _ => hXW j d') (IsReal.coe 512) h512
  have hs : ∀ i, IsReal (∑ j, A2 U WaT ba H1T i j * Ideal.div (∑ d' : Fin m, mm X W0 j d') ((512 : ℝ) : EReal)) :=
    fun i => IsReal.sum _ _ fun j _ => IsReal.mul (hA i j) (hμ j)
  have hL : ∀ i j, IsReal (mm (mm (A2 U WaT ba H1T) X) W0 i j) :=
    mm_isReal _ _ (mm_isReal _ _ hA hX) hW0
  have h : mm (A2 U WaT ba H1T) (cen X W0)
      = fun i d => mm (mm (A2 U WaT ba H1T) X) W0 i d
          - ∑ j, A2 U WaT ba H1T i j * Ideal.div (∑ d' : Fin m, mm X W0 j d') ((512 : ℝ) : EReal) := by
    funext i d
    rw [← mm_assoc _ X W0 hA hX hW0]
    exact mm_sub_row (A2 U WaT ba H1T) (mm X W0) _ hA hXW hμ i d
  unfold ZK ZR
  rw [h]
  exact softmax_shift _ _ hL hs

/-- Every entry of Z (as written) is real on real entries. -/
theorem ZR_isReal (U X : Fin n → Fin n → EReal) (H1T : Fin m → Fin n → EReal) (W0 WaT : Fin n → Fin m → EReal)
    (ba : Fin m → EReal)
    (hU : ∀ i j, IsReal (U i j)) (hX : ∀ i j, IsReal (X i j)) (hH : ∀ i j, IsReal (H1T i j))
    (hW0 : ∀ i j, IsReal (W0 i j)) (hWa : ∀ i j, IsReal (WaT i j)) (hba : ∀ i, IsReal (ba i)) (i : Fin n) (d : Fin m) :
    IsReal (ZR U X H1T W0 WaT ba i d) := by
  unfold ZR
  exact softmax_isReal _
    (mm_isReal _ _ (mm_isReal _ _ (A2_isReal U WaT ba H1T hU hWa hba hH) hX) hW0) i d

end Cert.Math

end
-- ==== Proof.MathX.lean ====
import proofs.«424005_j21242908246464_3_alg».proof.Proof.Spec
import proofs.«424005_j21242908246464_3_alg».proof.Proof.LibReal
import proofs.«424005_j21242908246464_3_alg».proof.Proof.MathZ
import Mathlib.Analysis.SpecialFunctions.Exp

noncomputable section

open scoped BigOperators

namespace Cert.Math

open Idealize.ShloMosaic Cert.Spec Cert.LibReal

variable {n m : ℕ}

/-- On a real the two-branch logistic function is 1 / (1 + e^{-x}): for x ≥ 0 the two forms are one,
    and for x < 0, e^{x} / (1 + e^{x}) = 1 / (e^{-x} + 1). -/
theorem sigK_eq_sigR {x : EReal} (hx : IsReal x) : sigK x = sigR x := by
  obtain ⟨r, rfl⟩ := hx
  unfold sigK sigR
  by_cases h : 0 ≤ r
  · -- x ≥ 0: |x| = x and 0 - x = -x, so the first branch is the one-form itself
    have h' : (0 : EReal) ≤ (r : EReal) := EReal.coe_nonneg.mpr h
    have hm : max (r : EReal) (-(r : EReal)) = (r : EReal) := by
      apply max_eq_left
      rw [← EReal.coe_neg]
      exact_mod_cast (by linarith : -r ≤ r)
    rw [if_pos h', hm, zero_sub]
  · -- x < 0: |x| = -x and 0 - (-x) = x; e^x / (1 + e^x) = 1 / (1 + e^{-x}) in ℝ
    have h' : ¬ (0 : EReal) ≤ (r : EReal) := fun hh => h (EReal.coe_nonneg.mp hh)
    have hm : max (r : EReal) (-(r : EReal)) = -(r : EReal) := by
      apply max_eq_right
      rw [← EReal.coe_neg]
      exact_mod_cast (by linarith : r ≤ -r)
    rw [if_neg h', hm, zero_sub, neg_neg]
    rw [← EReal.coe_neg, Ideal.exp_coe, Ideal.exp_coe, ← EReal.coe_one, ← EReal.coe_add, ← EReal.coe_add]
    have h1 : (1 + Real.exp r) ≠ 0 := by positivity
    have h2 : (1 + Real.exp (-r)) ≠ 0 := by positivity
    rw [Ideal.div_coe h1, Ideal.div_coe h2, ← EReal.coe_mul, ← EReal.coe_mul]
    congr 1
    rw [Real.exp_neg]
    have h3 : Real.exp r ≠ 0 := (Real.exp_pos r).ne'
    field_simp
    ring

/-- So on real entries the decoder's two forms agree. -/
theorem XpK_eq_XpR (U X : Fin n → Fin n → EReal) (H1T : Fin m → Fin n → EReal) (W0 WaT : Fin n → Fin m → EReal)
    (ba : Fin m → EReal) (W1 : Fin m → Fin n → EReal)
    (hU : ∀ i j, IsReal (U i j)) (hX : ∀ i j, IsReal (X i j)) (hH : ∀ i j, IsReal (H1T i j))
    (hW0 : ∀ i j, IsReal (W0 i j)) (hWa : ∀ i j, IsReal (WaT i j)) (hba : ∀ i, IsReal (ba i))
    (hW1 : ∀ i j, IsReal (W1 i j)) :
    XpK U X H1T W0 WaT ba W1 = XpR U X H1T W0 WaT ba W1 := by
  funext i j
  unfold XpK XpR
  rw [ZK_eq_ZR U X H1T W0 WaT ba hU hX hH hW0 hWa hba]
  apply sigK_eq_sigR
  -- the logit Σ_l (Σ_k U i k · Z k l) · W₁ l j is a finite sum of products of reals
  show IsReal (∑ l : Fin m, mm U (ZR U X H1T W0 WaT ba) i l * W1 l j)
  refine IsReal.sum _ _ fun l _ => IsReal.mul ?_ (hW1 l j)
  show IsReal (∑ k : Fin n, U i k * ZR U X H1T W0 WaT ba k l)
  exact IsReal.sum _ _ fun k _ =>
    IsReal.mul (hU i k) (ZR_isReal U X H1T W0 WaT ba hU hX hH hW0 hWa hba k l)

/-- The same two facts over the seven argument arrays. -/
theorem arrZK_eq_arrZR (x0 x1 : A88) (x2 x3 : A85) (x5 : A58) (x6 : A5)
    (h0 : ∀ i, IsReal (x0 i)) (h1 : ∀ i, IsReal (x1 i)) (h2 : ∀ i, IsReal (x2 i)) (h3 : ∀ i, IsReal (x3 i))
    (h5 : ∀ i, IsReal (x5 i)) (h6 : ∀ i, IsReal (x6 i)) :
    arrZK x0 x1 x2 x3 x5 x6 = arrZR x0 x1 x2 x3 x5 x6 := by
  unfold arrZK arrZR
  exact congrArg unc2 (ZK_eq_ZR _ _ _ _ _ _ (fun _ _ => h0 _) (fun _ _ => h1 _) (fun _ _ => h2 _)
    (fun _ _ => h3 _) (fun _ _ => h5 _) (fun _ => h6 _))

theorem arrXpK_eq_arrXpR (x0 x1 : A88) (x2 x3 : A85) (x4 x5 : A58) (x6 : A5)
    (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) :
    arrXpK x0 x1 x2 x3 x4 x5 x6 = arrXpR x0 x1 x2 x3 x4 x5 x6 := by
  unfold arrXpK arrXpR
  exact congrArg unc2 (XpK_eq_XpR _ _ _ _ _ _ _ (fun _ _ => h0 _) (fun _ _ => h1 _) (fun _ _ => h2 _)
    (fun _ _ => h3 _) (fun _ _ => h5 _) (fun _ => h6 _) (fun _ _ => h4 _))

end Cert.Math

end
-- ==== Proof.lean ====
/-
  The certificate of a three-call graph-attention kernel against its plain reference.

  Both programs compute, from a score matrix U, features X and weights H₁, W₀, W₁, Wa, ba:
  K = tanh (U · Waᵀ + ba), S = softmax (K · H₁ᵀ) along rows, A = U ∘ S, Z = softmax (A · X · W₀) along
  rows, and X' = σ ((U · Z) · W₁); they return (X', Z).

  The reference associates the triple product as (A · X) · W₀ and writes σ as 1 / (1 + e^{-x}).
  The kernel forms X · W₀ first, takes each row's mean over its 512 columns off that row, and writes σ
  in two branches over |x|.  Taking a row's mean off X · W₀ moves every logit of a row of Z by the
  same real amount, which a softmax along the row does not see; the product associates on real entries;
  and the two forms of σ agree on a real.  All three need the entries to be real numbers: the
  extended reals do not distribute at the infinities.  That is what the precondition gives.

  The frames of the two kernel programs and the reference's run are the generated ones.  The kernel's
  run is stated again with its two result arrays named; each call's result array is read as one
  function of the arrays the call stages, the calls are chained back to the arguments, and the
  reference's run is read operation by operation into the same vocabulary.
-/
import proofs.«424005_j21242908246464_3_alg».proof.Defs
import proofs.«424005_j21242908246464_3_alg».proof.Proof.Gen.Kernel
import proofs.«424005_j21242908246464_3_alg».proof.Proof.Gen.Kernel.Frame
import proofs.«424005_j21242908246464_3_alg».proof.Proof.Gen.KernelIdeal
import proofs.«424005_j21242908246464_3_alg».proof.Proof.Gen.KernelIdeal.Frame
import proofs.«424005_j21242908246464_3_alg».proof.Proof.Gen.ReferenceIdeal
import proofs.«424005_j21242908246464_3_alg».proof.Proof.Gen.ReferenceIdeal.Run
import proofs.«424005_j21242908246464_3_alg».proof.Proof.Gen.Pre_finite_inputs
import proofs.«424005_j21242908246464_3_alg».proof.Proof.Spec
import proofs.«424005_j21242908246464_3_alg».proof.Proof.KRun
import proofs.«424005_j21242908246464_3_alg».proof.Proof.KValue
import proofs.«424005_j21242908246464_3_alg».proof.Proof.RefValue
import proofs.«424005_j21242908246464_3_alg».proof.Proof.PreReal
import proofs.«424005_j21242908246464_3_alg».proof.Proof.MathX

noncomputable section

namespace Cert.Proof

open Idealize.ShloMosaic Idealize.SL.Sem Cert.Spec

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with X' and Z as written, of the
    kernel's arguments: the kernel's centred and two-branch forms are those on real entries, and the
    precondition makes every entry real. -/
theorem algebraic : Cert.algebraic_KernelIdeal_ReferenceIdeal := by
  intro m ρ m' ρ' hpre hagree
  refine ⟨fun c => arrXpR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => arrZR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Hand.run_named (F := Ideal) m ρ)
    obtain ⟨r0, r1, r2, r3, r4, r5, r6⟩ := Cert.PreReal.real_of_fn _ _ _ _ _ _ _ (hpre c)
    exact ⟨(h c).1.trans ((Cert.KernelIdeal.Hand.W4_v9 m ρ c).trans
        (Cert.Math.arrXpK_eq_arrXpR _ _ _ _ _ _ _ r0 r1 r2 r3 r4 r5 r6)),
      (h c).2.1.trans ((Cert.KernelIdeal.Hand.W4_v8_0 m ρ c).trans
        (Cert.Math.arrZK_eq_arrZR _ _ _ _ _ _ r0 r1 r2 r3 r5 r6)),
      (h c).2.2⟩
  · refine (θ_run Cert.ReferenceIdeal.defs _ _).mono (fun r h c => ?_) (Cert.ReferenceIdeal.Value.run (F := Ideal) m' ρ')
    obtain ⟨a0, a1, a2, a3, a4, a5, a6⟩ := hagree c
    refine ⟨(h c).1.trans ((Cert.ReferenceIdeal.RefValue.out0_eq m' c).trans ?_),
      (h c).2.1.trans ((Cert.ReferenceIdeal.RefValue.out1_eq m' c).trans ?_), (h c).2.2⟩
    · rw [a0, a1, a2, a3, a4, a5, a6]
    · rw [a0, a1, a2, a3, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
